-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S500 : Shape := ⟨1, ![500]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1x64 .f32) (main_arg11 : FVec F S1 .f32) (main_v33 : IVec S_ 1) : IVec S_ 1 :=
  let main_v34 : FVec F S1x64 .f32 := Host.absf main_arg10
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S64x64 .f32) (main_arg8 : FVec F S64x64 .f32) (main_arg9 : FVec F S64 .f32) (main_arg10 : FVec F S1x64 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S2x800000 32) (main_arg2 : IVec S50000 32) (main_arg3 : IVec S500 32) (main_arg4 : FVec F S64x128 .f32) (main_arg5 : FVec F S64x128 .f32) (main_arg6 : FVec F S64 .f32) (main_arg7 : FVec F S64x64 .f32) (main_arg8 : FVec F S64x64 .f32) (main_arg9 : FVec F S64 .f32) (main_arg10 : FVec F S1x64 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S500 : Shape := ⟨1, ![500]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S128x64 : Shape := ⟨2, ![128, 64]⟩
abbrev S800000x128 : Shape := ⟨2, ![800000, 128]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩
abbrev S500x1 : Shape := ⟨2, ![500, 1]⟩
abbrev S500x64 : Shape := ⟨2, ![500, 64]⟩
abbrev S64x1 : Shape := ⟨2, ![64, 1]⟩
abbrev S1x1 : Shape := ⟨2, ![1, 1]⟩

abbrev nBuf : Space → Nat
  | .hbm => 98
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S500, .i32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S128x64, .f32⟩
  | .hbm, ⟨30, _⟩ => ⟨S128x64, .f32⟩
  | .hbm, ⟨31, _⟩ => ⟨S64x64, .f32⟩
  | .hbm, ⟨32, _⟩ => ⟨S64x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S500, .i32⟩
  | .hbm, ⟨63, _⟩ => ⟨S_, .i32⟩
  | .hbm, ⟨64, _⟩ => ⟨S_, .i32⟩
  | .hbm, ⟨65, _⟩ => ⟨S50000, .i32⟩
  | .hbm, ⟨66, _⟩ => ⟨S50000, .i32⟩
  | .hbm, ⟨67, _⟩ => ⟨S_, .i32⟩
  | .hbm, ⟨68, _⟩ => ⟨S50000, .i32⟩
  | .hbm, ⟨69, _⟩ => ⟨S50000, .i1⟩
  | .hbm, ⟨70, _⟩ => ⟨S_, .i32⟩
  | .hbm, ⟨71, _⟩ => ⟨S50000, .i32⟩
  | .hbm, ⟨72, _⟩ => ⟨S50000, .i32⟩
  | .hbm, ⟨73, _⟩ => ⟨S50000, .i32⟩
  | .hbm, ⟨74, _⟩ => ⟨S50000x1, .i32⟩
  | .hbm, ⟨75, _⟩ => ⟨S_, .i32⟩
  | .hbm, ⟨76, _⟩ => ⟨S50000, .i32⟩
  | .hbm, ⟨77, _⟩ => ⟨S500, .i32⟩
  | .hbm, ⟨78, _⟩ => ⟨S_, .i32⟩
  | .hbm, ⟨79, _⟩ => ⟨S_, .i32⟩
  | .hbm, ⟨80, _⟩ => ⟨S500, .i32⟩
  | .hbm, ⟨81, _⟩ => ⟨S500, .i32⟩
  | .hbm, ⟨82, _⟩ => ⟨S500, .i32⟩
  | .hbm, ⟨83, _⟩ => ⟨S_, .i32⟩
  | .hbm, ⟨84, _⟩ => ⟨S500, .i32⟩
  | .hbm, ⟨85, _⟩ => ⟨S500, .i1⟩
  | .hbm, ⟨86, _⟩ => ⟨S_, .i32⟩
  | .hbm, ⟨87, _⟩ => ⟨S500, .i32⟩
  | .hbm, ⟨88, _⟩ => ⟨S500, .i32⟩
  | .hbm, ⟨89, _⟩ => ⟨S500, .i32⟩
  | .hbm, ⟨90, _⟩ => ⟨S500x1, .i32⟩
  | .hbm, ⟨91, _⟩ => ⟨S500x64, .f32⟩
  | .hbm, ⟨92, _⟩ => ⟨S64x1, .f32⟩
  | .hbm, ⟨93, _⟩ => ⟨S500x1, .f32⟩
  | .hbm, ⟨94, _⟩ => ⟨S1x1, .f32⟩
  | .hbm, ⟨95, _⟩ => ⟨S500x1, .f32⟩
  | .hbm, ⟨96, _⟩ => ⟨S500x1, .f32⟩
  | .hbm, ⟨97, _⟩ => ⟨S500, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S128x64, .f32⟩
  | .local _ .vmem, ⟨8, _⟩ => ⟨S64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_c_9 : Ref sig .tc := ⟨.hbm, 63, rfl⟩
abbrev main_call0_v0 : Ref sig .tc := ⟨.hbm, 64, rfl⟩
abbrev main_call0_v1 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_call1_call0_c : Ref sig .tc := ⟨.hbm, 78, rfl⟩
abbrev main_call1_call0_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_v53 : Ref sig .tc := ⟨.hbm, 85, rfl⟩
abbrev main_c_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S64x128_S128x64_1_0 : S64x128.Transposes [1, 0] S128x64
  transposes_S64x64_S64x64_1_0 : S64x64.Transposes [1, 0] S64x64
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S500 : S_.BroadcastsInDim S500 (![] : Fin 0 → Fin S500.rank)
  bcast_S50000_S50000x1_0 : S50000.BroadcastsInDim S50000x1 (![0] : Fin 1 → Fin S50000x1.rank)
  bcast_S_S_ : S_.BroadcastsInDim S_ (![] : Fin 0 → Fin S_.rank)
  reduceWindows_S500_S500_w500s1p499_0 : S500.ReduceWindows (![500] : Fin 1 → Nat) ![1] ![499] ![0] S500
  h_S_ : 0 < S_.numel
  bcast_S500_S500x1_0 : S500.BroadcastsInDim S500x1 (![0] : Fin 1 → Fin S500x1.rank)
  transposes_S1x64_S64x1_1_0 : S1x64.Transposes [1, 0] S64x1
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  shapeCasts_S500x1_S500 : S500x1.ShapeCasts S500
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]
  dot_S500x64_S64x1_S500x1_1_0_0_1_n_n_wf : DotDims.WF S500x64 S64x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S500 : Shape := ⟨1, ![500]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x64 : Shape := ⟨2, ![128, 64]⟩
abbrev S50000x64 : Shape := ⟨2, ![50000, 64]⟩
abbrev S800000x64 : Shape := ⟨2, ![800000, 64]⟩
abbrev S500x1 : Shape := ⟨2, ![500, 1]⟩
abbrev S500x64 : Shape := ⟨2, ![500, 64]⟩
abbrev S64x1 : Shape := ⟨2, ![64, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S500, .i32⟩
  | .hbm, ⟨4, _⟩ => ⟨S64x128, .f32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x64, .f32⟩
  | .hbm, ⟨42, _⟩ => ⟨S50000x64, .f32⟩
  | .hbm, ⟨43, _⟩ => ⟨S128x64, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S64x64, .f32⟩
  | .hbm, ⟨78, _⟩ => ⟨S50000x64, .f32⟩
  | .hbm, ⟨79, _⟩ => ⟨S64x64, .f32⟩
  | .hbm, ⟨80, _⟩ => ⟨S50000x64, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S_, .i32⟩
  | .hbm, ⟨89, _⟩ => ⟨S500, .i32⟩
  | .hbm, ⟨90, _⟩ => ⟨S_, .i32⟩
  | .hbm, ⟨91, _⟩ => ⟨S_, .i32⟩
  | .hbm, ⟨92, _⟩ => ⟨S50000, .i32⟩
  | .hbm, ⟨93, _⟩ => ⟨S50000, .i32⟩
  | .hbm, ⟨94, _⟩ => ⟨S_, .i32⟩
  | .hbm, ⟨95, _⟩ => ⟨S50000, .i32⟩
  | .hbm, ⟨96, _⟩ => ⟨S50000, .i1⟩
  | .hbm, ⟨97, _⟩ => ⟨S_, .i32⟩
  | .hbm, ⟨98, _⟩ => ⟨S50000, .i32⟩
  | .hbm, ⟨99, _⟩ => ⟨S50000, .i32⟩
  | .hbm, ⟨100, _⟩ => ⟨S50000, .i32⟩
  | .hbm, ⟨101, _⟩ => ⟨S50000x1, .i32⟩
  | .hbm, ⟨102, _⟩ => ⟨S_, .i32⟩
  | .hbm, ⟨103, _⟩ => ⟨S50000, .i32⟩
  | .hbm, ⟨104, _⟩ => ⟨S500, .i32⟩
  | .hbm, ⟨105, _⟩ => ⟨S_, .i32⟩
  | .hbm, ⟨106, _⟩ => ⟨S_, .i32⟩
  | .hbm, ⟨107, _⟩ => ⟨S500, .i32⟩
  | .hbm, ⟨108, _⟩ => ⟨S500, .i32⟩
  | .hbm, ⟨109, _⟩ => ⟨S500, .i32⟩
  | .hbm, ⟨110, _⟩ => ⟨S_, .i32⟩
  | .hbm, ⟨111, _⟩ => ⟨S500, .i32⟩
  | .hbm, ⟨112, _⟩ => ⟨S500, .i1⟩
  | .hbm, ⟨113, _⟩ => ⟨S_, .i32⟩
  | .hbm, ⟨114, _⟩ => ⟨S500, .i32⟩
  | .hbm, ⟨115, _⟩ => ⟨S500, .i32⟩
  | .hbm, ⟨116, _⟩ => ⟨S500, .i32⟩
  | .hbm, ⟨117, _⟩ => ⟨S500x1, .i32⟩
  | .hbm, ⟨118, _⟩ => ⟨S500x64, .f32⟩
  | .hbm, ⟨119, _⟩ => ⟨S64x1, .f32⟩
  | .hbm, ⟨120, _⟩ => ⟨S500x1, .f32⟩
  | .hbm, ⟨121, _⟩ => ⟨S1x1, .f32⟩
  | .hbm, ⟨122, _⟩ => ⟨S500x1, .f32⟩
  | .hbm, ⟨123, _⟩ => ⟨S500x1, .f32⟩
  | .hbm, ⟨124, _⟩ => ⟨S500, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_c_11 : Ref sig .tc := ⟨.hbm, 90, rfl⟩
abbrev main_call2_v0 : Ref sig .tc := ⟨.hbm, 91, rfl⟩
abbrev main_call2_v1 : Ref sig .tc := ⟨.hbm, 92, rfl⟩
abbrev main_v61 : Ref sig .tc := ⟨.hbm, 93, rfl⟩
abbrev main_c_12 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_call3_call0_c : Ref sig .tc := ⟨.hbm, 105, rfl⟩
abbrev main_call3_call0_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  bcast_S_S500 : S_.BroadcastsInDim S500 (![] : Fin 0 → Fin S500.rank)
  bcast_S_S_ : S_.BroadcastsInDim S_ (![] : Fin 0 → Fin S_.rank)
  reduceWindows_S500_S500_w500s1p499_0 : S500.ReduceWindows (![500] : Fin 1 → Nat) ![1] ![499] ![0] S500
  h_S_ : 0 < S_.numel
  bcast_S500_S500x1_0 : S500.BroadcastsInDim S500x1 (![0] : Fin 1 → Fin S500x1.rank)
  transposes_S1x64_S64x1_1_0 : S1x64.Transposes [1, 0] S64x1
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  shapeCasts_S500x1_S500 : S500x1.ShapeCasts S500
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]
  dot_S500x64_S64x1_S500x1_1_0_0_1_n_n_wf : DotDims.WF S500x64 S64x1 S500x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

class Facts : Prop extends Facts₀ where

variable [Facts]
-- ==== Proof.RefDefs.lean ====
/-
  The pieces of the graph network that both programs compute with the same host operations, named once, over the
  reference's own shape facts: the source and destination node of every edge as index columns (a negative source index
  wrapped by the node count), the in-degree of every node (a scatter-add of ones at the destinations), the neighbour
  sums of a feature array (rows gathered at the sources, scatter-added at the destinations), the row of each graph's
  centre node (the graph's first row, from the counts of the batch vector and their running sum, plus the centre's
  position) and the read-out (those rows gathered, contracted with the output weights, plus the output bias).
-/
import proofs.«138282_j28020366639688_1_alg».proof.Proof.Gen.ReferenceIdeal

noncomputable section

namespace Cert.Sage.RefDefs

open Idealize.ShloMosaic Cert.ReferenceIdeal
open Cert.ReferenceIdeal.Facts₀ Cert.ReferenceIdeal.Facts

variable {F : FTy → Type} [FloatOps F]

/-- Row 0 of the edge list: every edge's source node. -/
def srcRow (E : (⟨S2x800000, .i32⟩ : BufTy).Contents (Elt F)) : (⟨S800000, .i32⟩ : BufTy).Contents (Elt F) :=
  shapeCast S800000 (extractStridedSlice S1x800000 ![0, 0] E slices_S2x800000_S1x800000_0_0) shapeCasts_S1x800000_S800000

/-- Row 1 of the edge list: every edge's destination node. -/
def dstRow (E : (⟨S2x800000, .i32⟩ : BufTy).Contents (Elt F)) : (⟨S800000, .i32⟩ : BufTy).Contents (Elt F) :=
  shapeCast S800000 (extractStridedSlice S1x800000 ![1, 0] E slices_S2x800000_S1x800000_1_0) shapeCasts_S1x800000_S800000

/-- The sources as a gather's index column, a negative index wrapped by the node count. -/
def srcCol (E : (⟨S2x800000, .i32⟩ : BufTy).Contents (Elt F)) : (⟨S800000x1, .i32⟩ : BufTy).Contents (Elt F) :=
  broadcastInDim S800000x1 ![0] bcast_S800000_S800000x1_0
    (select (cmpi .slt (srcRow E) (broadcastInDim S800000 ![] bcast_S_S800000 (constantI S_ 32 0#32)))
      (addi (srcRow E) (broadcastInDim S800000 ![] bcast_S_S800000 (constantI S_ 32 50000#32))) (srcRow E))

/-- The destinations as a scatter's index column. -/
def dstCol (E : (⟨S2x800000, .i32⟩ : BufTy).Contents (Elt F)) : (⟨S800000x1, .i32⟩ : BufTy).Contents (Elt F) :=
  broadcastInDim S800000x1 ![0] bcast_S800000_S800000x1_0 (dstRow E)

/-- Every node's in-degree: ones scatter-added at the destinations. -/
def deg (E : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32)) (dstCol E)
    (broadcastInDim S800000 ![] bcast_S_S800000 (constant S_ .f32 0x3F800000#32))

/-- The neighbour sums of a 128-wide feature array. -/
def agg128 (x : (⟨S50000x128, .f32⟩ : BufTy).Contents (Elt F)) (E : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol E)
    (Host.gather gather_S50000x128_S800000x1_S800000x128_1_0_n_n_0_1_1128 x (srcCol E))

/-- The neighbour sums of a 64-wide feature array. -/
def agg64 (h : (⟨S50000x64, .f32⟩ : BufTy).Contents (Elt F)) (E : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstCol E)
    (Host.gather gather_S50000x64_S800000x1_S800000x64_1_0_n_n_0_1_164 h (srcCol E))

/-- The batch vector clipped below at zero, a negative entry then wrapped by the graph count. -/
def batchIdx (B : (⟨S50000, .i32⟩ : BufTy).Contents (Elt F)) : (⟨S50000, .i32⟩ : BufTy).Contents (Elt F) :=
  select (cmpi .slt (maxsi (broadcastInDim S50000 ![] bcast_S_S50000 (constantI S_ 32 0#32)) B)
      (broadcastInDim S50000 ![] bcast_S_S50000 (constantI S_ 32 0#32)))
    (addi (maxsi (broadcastInDim S50000 ![] bcast_S_S50000 (constantI S_ 32 0#32)) B)
      (broadcastInDim S50000 ![] bcast_S_S50000 (constantI S_ 32 500#32)))
    (maxsi (broadcastInDim S50000 ![] bcast_S_S50000 (constantI S_ 32 0#32)) B)

/-- How many nodes each graph has. -/
def counts (B : (⟨S50000, .i32⟩ : BufTy).Contents (Elt F)) : (⟨S500, .i32⟩ : BufTy).Contents (Elt F) :=
  Host.scatter scatter_S500_S50000x1_S50000_n_0_0_1 IntOp.addi
    (broadcastInDim S500 ![] bcast_S_S500 (constantI S_ 32 0#32))
    (broadcastInDim S50000x1 ![0] bcast_S50000_S50000x1_0 (batchIdx B))
    (broadcastInDim S50000 ![] bcast_S_S50000 (constantI S_ 32 1#32))

/-- The running sum of the counts. -/
def countsSum (B : (⟨S50000, .i32⟩ : BufTy).Contents (Elt F)) : (⟨S500, .i32⟩ : BufTy).Contents (Elt F) :=
  Host.reduceWindow IntOp.addi ![500] ![1] ![499] ![0] (counts B)
    (broadcastInDim S_ ![] bcast_S_S_ (constantI S_ 32 0#32)) reduceWindows_S500_S500_w500s1p499_0 h_S_

/-- Each graph's centre node: the graph's first row plus the centre's position. -/
def centerPos (B : (⟨S50000, .i32⟩ : BufTy).Contents (Elt F)) (P : (⟨S500, .i32⟩ : BufTy).Contents (Elt F)) :
    (⟨S500, .i32⟩ : BufTy).Contents (Elt F) :=
  addi (subi (countsSum B) (counts B)) P

/-- The centre nodes as a gather's index column, a negative index wrapped by the node count. -/
def centerCol (B : (⟨S50000, .i32⟩ : BufTy).Contents (Elt F)) (P : (⟨S500, .i32⟩ : BufTy).Contents (Elt F)) :
    (⟨S500x1, .i32⟩ : BufTy).Contents (Elt F) :=
  broadcastInDim S500x1 ![0] bcast_S500_S500x1_0
    (select (cmpi .slt (centerPos B P) (broadcastInDim S500 ![] bcast_S_S500 (constantI S_ 32 0#32)))
      (addi (centerPos B P) (broadcastInDim S500 ![] bcast_S_S500 (constantI S_ 32 50000#32))) (centerPos B P))

/-- The read-out: the centre rows of the last layer, contracted with the output weights, plus the output bias. -/
def tail (h2 : (⟨S50000x64, .f32⟩ : BufTy).Contents (Elt F)) (B : (⟨S50000, .i32⟩ : BufTy).Contents (Elt F))
    (P : (⟨S500, .i32⟩ : BufTy).Contents (Elt F)) (Wout : (⟨S1x64, .f32⟩ : BufTy).Contents (Elt F))
    (bout : (⟨S1, .f32⟩ : BufTy).Contents (Elt F)) : (⟨S500, .f32⟩ : BufTy).Contents (Elt F) :=
  shapeCast S500
    (addf (Host.dotGeneral dot_S500x64_S64x1_S500x1_1_0_0_1_n_n none
        (Host.gather gather_S50000x64_S500x1_S500x64_1_0_n_n_0_1_164 h2 (centerCol B P))
        (transpose S64x1 [1, 0] Wout transposes_S1x64_S64x1_1_0))
      (broadcastInDim S500x1 ![0, 1] bcast_S1x1_S500x1_0_1 (broadcastInDim S1x1 ![1] bcast_S1_S1x1_1 bout)))
    shapeCasts_S500x1_S500

end Cert.Sage.RefDefs

end
-- ==== Proof.Spec.lean ====
/-
  One graph-convolution layer, entry by entry, in the two forms the two programs compute it.

  A layer takes the neighbour sums `agg` [N, C], a per-node degree, the node features `x` [N, C], two weight matrices and
  a bias [H], and returns relu((agg / max(deg, 1)) · Wlᵀ + x · Wrᵀ + b) as an [N, H] array.
  The kernel is handed the reciprocal column s = 1 / max(deg, 1) as an [N, 1] array and the weights already transposed
  ([C, H]); it multiplies each neighbour sum by s before the product. The reference divides by max(deg, 1) and contracts
  against the untransposed weights ([H, C]) on their second axis.
  The two agree on the extended reals without any finiteness: max(e, 1) is never zero, so dividing by it is multiplying
  by its inverse, and the reciprocal 1 / max(e, 1) is that same inverse.
-/
import Idealize.ShloMosaic.Lib.ValueIdx
import Idealize.ShloMosaic.PureOps.Ideal.Laws

noncomputable section

open scoped BigOperators

namespace Cert.Sage

open Idealize.ShloMosaic Idealize.ShloMosaic.ValueIdx

/-- The maximum of anything with 1 is not zero. -/
theorem max_one_ne_zero (e : EReal) : max e 1 ≠ 0 :=
  ne_of_gt (lt_of_lt_of_le zero_lt_one (le_max_right e 1))

/-- Multiplying by the reciprocal of max(e, 1) is dividing by max(e, 1), for every extended real `a` and `e`. -/
theorem mul_recip_max (a e : EReal) : a * Ideal.div 1 (max e 1) = Ideal.div a (max e 1) := by
  unfold Ideal.div
  rw [if_neg (max_one_ne_zero e), if_neg (max_one_ne_zero e), one_mul]

/-- Entry (n, j) of the kernel's form: relu(Σₖ (agg(n,k) · s(n)) · wl(k,j) + Σₖ x(n,k) · wr(k,j) + b(j)),
    with `s` an [N, 1] column and the weights [C, H]. -/
def layerKAt {N C H : ℕ} (agg : (⟨2, ![N, C]⟩ : Shape).Idx → EReal) (s : (⟨2, ![N, 1]⟩ : Shape).Idx → EReal)
    (x : (⟨2, ![N, C]⟩ : Shape).Idx → EReal) (wl wr : (⟨2, ![C, H]⟩ : Shape).Idx → EReal)
    (b : (⟨1, ![H]⟩ : Shape).Idx → EReal) (n : Fin N) (j : Fin H) : EReal :=
  max (((∑ k : Fin C, (agg (ix2 n k) * s (ix2 n (0 : Fin 1))) * wl (ix2 k j))
    + ∑ k : Fin C, x (ix2 n k) * wr (ix2 k j)) + b (ix1 j)) 0

/-- The kernel's form of a layer, as an [N, H] array. -/
def layerK {N C H : ℕ} (agg : (⟨2, ![N, C]⟩ : Shape).Idx → EReal) (s : (⟨2, ![N, 1]⟩ : Shape).Idx → EReal)
    (x : (⟨2, ![N, C]⟩ : Shape).Idx → EReal) (wl wr : (⟨2, ![C, H]⟩ : Shape).Idx → EReal)
    (b : (⟨1, ![H]⟩ : Shape).Idx → EReal) : (⟨2, ![N, H]⟩ : Shape).Idx → EReal :=
  fun i => layerKAt agg s x wl wr b (i 0) (i 1)

theorem layerK_apply {N C H : ℕ} (agg : (⟨2, ![N, C]⟩ : Shape).Idx → EReal) (s : (⟨2, ![N, 1]⟩ : Shape).Idx → EReal)
    (x : (⟨2, ![N, C]⟩ : Shape).Idx → EReal) (wl wr : (⟨2, ![C, H]⟩ : Shape).Idx → EReal)
    (b : (⟨1, ![H]⟩ : Shape).Idx → EReal) (n : Fin N) (j : Fin H) :
    layerK agg s x wl wr b (ix2 n j) = layerKAt agg s x wl wr b n j := rfl

/-- Entry (n, j) of the reference's form:
    relu(Σₖ (agg(n,k) / max(deg(n), 1)) · Wl(j,k) + Σₖ x(n,k) · Wr(j,k) + b(j)), the weights [H, C]. -/
def layerSpecAt {N C H : ℕ} (agg : (⟨2, ![N, C]⟩ : Shape).Idx → EReal) (deg : (⟨1, ![N]⟩ : Shape).Idx → EReal)
    (x : (⟨2, ![N, C]⟩ : Shape).Idx → EReal) (Wl Wr : (⟨2, ![H, C]⟩ : Shape).Idx → EReal)
    (b : (⟨1, ![H]⟩ : Shape).Idx → EReal) (n : Fin N) (j : Fin H) : EReal :=
  max (((∑ k : Fin C, Ideal.div (agg (ix2 n k)) (max (deg (ix1 n)) 1) * Wl (ix2 j k))
    + ∑ k : Fin C, x (ix2 n k) * Wr (ix2 j k)) + b (ix1 j)) 0

/-- The reference's form of a layer, as an [N, H] array. -/
def layerSpec {N C H : ℕ} (agg : (⟨2, ![N, C]⟩ : Shape).Idx → EReal) (deg : (⟨1, ![N]⟩ : Shape).Idx → EReal)
    (x : (⟨2, ![N, C]⟩ : Shape).Idx → EReal) (Wl Wr : (⟨2, ![H, C]⟩ : Shape).Idx → EReal)
    (b : (⟨1, ![H]⟩ : Shape).Idx → EReal) : (⟨2, ![N, H]⟩ : Shape).Idx → EReal :=
  fun i => layerSpecAt agg deg x Wl Wr b (i 0) (i 1)

theorem layerSpec_apply {N C H : ℕ} (agg : (⟨2, ![N, C]⟩ : Shape).Idx → EReal) (deg : (⟨1, ![N]⟩ : Shape).Idx → EReal)
    (x : (⟨2, ![N, C]⟩ : Shape).Idx → EReal) (Wl Wr : (⟨2, ![H, C]⟩ : Shape).Idx → EReal)
    (b : (⟨1, ![H]⟩ : Shape).Idx → EReal) (n : Fin N) (j : Fin H) :
    layerSpec agg deg x Wl Wr b (ix2 n j) = layerSpecAt agg deg x Wl Wr b n j := rfl

/-- The kernel's form, fed the reciprocal column of max(deg, 1) and the transposed weights, is the reference's form. -/
theorem layerK_eq_layerSpec {N C H : ℕ} (agg : (⟨2, ![N, C]⟩ : Shape).Idx → EReal) (s : (⟨2, ![N, 1]⟩ : Shape).Idx → EReal)
    (deg : (⟨1, ![N]⟩ : Shape).Idx → EReal) (x : (⟨2, ![N, C]⟩ : Shape).Idx → EReal)
    (wl wr : (⟨2, ![C, H]⟩ : Shape).Idx → EReal) (Wl Wr : (⟨2, ![H, C]⟩ : Shape).Idx → EReal)
    (b : (⟨1, ![H]⟩ : Shape).Idx → EReal)
    (hs : ∀ n : Fin N, s (ix2 n (0 : Fin 1)) = Ideal.div 1 (max (deg (ix1 n)) 1))
    (hwl : ∀ (k : Fin C) (j : Fin H), wl (ix2 k j) = Wl (ix2 j k))
    (hwr : ∀ (k : Fin C) (j : Fin H), wr (ix2 k j) = Wr (ix2 j k)) :
    layerK agg s x wl wr b = layerSpec agg deg x Wl Wr b := by
  funext i
  obtain ⟨n, j, rfl⟩ : ∃ (n : Fin N) (j : Fin H), i = ix2 n j := ⟨i 0, i 1, eq_ix2 i⟩
  rw [layerK_apply, layerSpec_apply]
  unfold layerKAt layerSpecAt
  rw [hs n]
  have e1 : (∑ k : Fin C, (agg (ix2 n k) * Ideal.div 1 (max (deg (ix1 n)) 1)) * wl (ix2 k j))
      = ∑ k : Fin C, Ideal.div (agg (ix2 n k)) (max (deg (ix1 n)) 1) * Wl (ix2 j k) :=
    Finset.sum_congr rfl fun k _ => by rw [mul_recip_max, hwl]
  have e2 : (∑ k : Fin C, x (ix2 n k) * wr (ix2 k j)) = ∑ k : Fin C, x (ix2 n k) * Wr (ix2 j k) :=
    Finset.sum_congr rfl fun k _ => by rw [hwr]
  rw [e1, e2]

end Cert.Sage

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.KChain.lean ====
/-
  What the kernel program's result buffer holds, traced from the launch memory through its host operations and its two
  pallas_calls.

  Before the first call the host computes, from the edge list, every node's in-degree (ones scatter-added at the edge
  destinations), its reciprocal column 1 / max(deg, 1) as a [50000, 1] array, the neighbour sums of the features (rows
  gathered at the edge sources, scatter-added at the destinations), and the four weight matrices transposed. The first
  call's output array is the first layer in the kernel's form; with the reciprocal column and the transposed weights read
  entry by entry it is the layer's reference form. Between the calls the host forms the neighbour sums of that layer the
  same way; the second call's output array is the second layer. After it the host reads each graph's centre row and
  contracts it with the output weights. Every host piece is the same chain of operations the reference applies, so it is
  named by the reference's own definitions, and the two layers by the common form of a layer.
-/
import proofs.«138282_j28020366639688_1_alg».proof.Proof.Gen.KernelIdeal.Frame
import proofs.«138282_j28020366639688_1_alg».proof.Proof.RefDefs
import proofs.«138282_j28020366639688_1_alg».proof.Proof.Spec
import proofs.«138282_j28020366639688_1_alg».proof.Proof.LibKeepdims
import Idealize.ShloMosaic.Lib.StableHlo.Run
import Idealize.ShloMosaic.Lib.ValueLayout
import Idealize.ShloMosaic.Lib.Pipeline.Value

set_option Elab.async false

noncomputable section

namespace Cert.Sage.KChain

open Idealize.ShloMosaic Idealize.ShloMosaic.TcCoe Idealize.SL.Sem Idealize.ShloMosaic.StableHlo Idealize.ShloMosaic.ValueIdx
open Cert.KernelIdeal Cert.KernelIdeal.Gen

-- the bodies of the gathers, scatters and the windowed sum are never opened: every equation below is between terms
-- that apply them to the same operands
attribute [local irreducible] Host.gather Host.scatterAdd Host.scatter Host.reduceWindow

variable (m : (ℓ : Loc nD τ sig) → Buf (Elt Ideal) ℓ) (ρ : Dev nD → PrngReg) (c : Dev nD)

/-! ## The argument arrays on one device -/

abbrev aX : (⟨Cert.ReferenceIdeal.S50000x128, .f32⟩ : BufTy).Contents (Elt Ideal) := m ((c : Thread nD τ).loc main_arg0)
abbrev aE : (⟨Cert.ReferenceIdeal.S2x800000, .i32⟩ : BufTy).Contents (Elt Ideal) := m ((c : Thread nD τ).loc main_arg1)
abbrev aB : (⟨Cert.ReferenceIdeal.S50000, .i32⟩ : BufTy).Contents (Elt Ideal) := m ((c : Thread nD τ).loc main_arg2)
abbrev aP : (⟨Cert.ReferenceIdeal.S500, .i32⟩ : BufTy).Contents (Elt Ideal) := m ((c : Thread nD τ).loc main_arg3)
abbrev aWl1 : (⟨Cert.ReferenceIdeal.S64x128, .f32⟩ : BufTy).Contents (Elt Ideal) := m ((c : Thread nD τ).loc main_arg4)
abbrev aWr1 : (⟨Cert.ReferenceIdeal.S64x128, .f32⟩ : BufTy).Contents (Elt Ideal) := m ((c : Thread nD τ).loc main_arg5)
abbrev ab1 : (⟨Cert.ReferenceIdeal.S64, .f32⟩ : BufTy).Contents (Elt Ideal) := m ((c : Thread nD τ).loc main_arg6)
abbrev aWl2 : (⟨Cert.ReferenceIdeal.S64x64, .f32⟩ : BufTy).Contents (Elt Ideal) := m ((c : Thread nD τ).loc main_arg7)
abbrev aWr2 : (⟨Cert.ReferenceIdeal.S64x64, .f32⟩ : BufTy).Contents (Elt Ideal) := m ((c : Thread nD τ).loc main_arg8)
abbrev ab2 : (⟨Cert.ReferenceIdeal.S64, .f32⟩ : BufTy).Contents (Elt Ideal) := m ((c : Thread nD τ).loc main_arg9)
abbrev aWout : (⟨Cert.ReferenceIdeal.S1x64, .f32⟩ : BufTy).Contents (Elt Ideal) := m ((c : Thread nD τ).loc main_arg10)
abbrev about : (⟨Cert.ReferenceIdeal.S1, .f32⟩ : BufTy).Contents (Elt Ideal) := m ((c : Thread nD τ).loc main_arg11)

/-- The first layer: the common form over the neighbour sums of the features. -/
def H1 : (⟨Cert.ReferenceIdeal.S50000x64, .f32⟩ : BufTy).Contents (Elt Ideal) :=
  Cert.Sage.layerSpec (N := 50000) (C := 128) (H := 64) (RefDefs.agg128 (aX m c) (aE m c)) (RefDefs.deg (aE m c)) (aX m c)
    (aWl1 m c) (aWr1 m c) (ab1 m c)

/-- The second layer: the common form over the neighbour sums of the first layer. -/
def H2 : (⟨Cert.ReferenceIdeal.S50000x64, .f32⟩ : BufTy).Contents (Elt Ideal) :=
  Cert.Sage.layerSpec (N := 50000) (C := 64) (H := 64) (RefDefs.agg64 (H1 m c) (aE m c)) (RefDefs.deg (aE m c)) (H1 m c)
    (aWl2 m c) (aWr2 m c) (ab2 m c)

/-- The reciprocal column the kernel is handed: 1 / max(deg, 1), cast from a vector to a [50000, 1] array. -/
def invCol (E : (⟨Cert.ReferenceIdeal.S2x800000, .i32⟩ : BufTy).Contents (Elt Ideal)) : (⟨S50000x1, .f32⟩ : BufTy).Contents (Elt Ideal) :=
  shapeCast S50000x1
    (Host.divf (broadcastInDim S50000 ![] bcast_S_S50000 (constant (F := Ideal) S_ .f32 0x3F800000#32))
      (maximumf (RefDefs.deg E) (broadcastInDim S50000 ![] bcast_S_S50000 (constant (F := Ideal) S_ .f32 0x3F800000#32))))
    shapeCasts_S50000_S50000x1

/-- The host's quotient of two arrays, read at an index, is the quotient of the entries. -/
theorem hostDivf_apply {s : Shape} (a b : FVec Ideal s .f32) (i : s.Idx) : Host.divf a b i = Ideal.div (a i) (b i) := rfl

/-- A scalar splat read at any index is the scalar. -/
theorem splat_apply {t : Shape} {α : Type} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- The column at row n is the reciprocal of max(deg(n), 1). -/
theorem invCol_apply (E : (⟨Cert.ReferenceIdeal.S2x800000, .i32⟩ : BufTy).Contents (Elt Ideal)) (n : Fin 50000) :
    invCol E (ix2 n (0 : Fin 1)) = Ideal.div 1 (max (RefDefs.deg E (ix1 n)) 1) := by
  unfold invCol
  rw [Cert.LibKeepdims.cast_vec_col, hostDivf_apply, maximumf_apply, splat_apply, constant_apply,
    Cert.LibKeepdims.ofBits_one_f32]

/-! ## After the first stretch of host operations -/

theorem w1_agg : W1 m ρ c (Proc.devRef .tc main_v26) = RefDefs.agg128 (aX m c) (aE m c) := by
  dsimp only [W1, W0]; simp only [hostOps0]; after_results_simp
  try rfl
theorem w1_inv : W1 m ρ c (Proc.devRef .tc main_v12) = invCol (aE m c) := by
  dsimp only [W1, W0]; simp only [hostOps0]; after_results_simp
  try rfl
theorem w1_wl1 : W1 m ρ c (Proc.devRef .tc main_v13) = transpose S128x64 [1, 0] (aWl1 m c) transposes_S64x128_S128x64_1_0 := by
  dsimp only [W1, W0]; simp only [hostOps0]; after_results_simp
  try rfl
theorem w1_wr1 : W1 m ρ c (Proc.devRef .tc main_v14) = transpose S128x64 [1, 0] (aWr1 m c) transposes_S64x128_S128x64_1_0 := by
  dsimp only [W1, W0]; simp only [hostOps0]; after_results_simp
  try rfl
theorem w1_wl2 : W1 m ρ c (Proc.devRef .tc main_v15) = transpose S64x64 [1, 0] (aWl2 m c) transposes_S64x64_S64x64_1_0 := by
  dsimp only [W1, W0]; simp only [hostOps0]; after_results_simp
  try rfl
theorem w1_wr2 : W1 m ρ c (Proc.devRef .tc main_v16) = transpose S64x64 [1, 0] (aWr2 m c) transposes_S64x64_S64x64_1_0 := by
  dsimp only [W1, W0]; simp only [hostOps0]; after_results_simp
  try rfl
theorem w1_src : W1 m ρ c (Proc.devRef .tc main_v1) = RefDefs.srcRow (aE m c) := by
  dsimp only [W1, W0]; simp only [hostOps0]; after_results_simp
  try rfl
theorem w1_dst : W1 m ρ c (Proc.devRef .tc main_v3) = RefDefs.dstRow (aE m c) := by
  dsimp only [W1, W0]; simp only [hostOps0]; after_results_simp
  try rfl
theorem w1_x : W1 m ρ c (Proc.devRef .tc main_arg0) = aX m c := by
  dsimp only [W1, W0]; simp only [hostOps0]; after_results_simp
  try rfl
theorem w1_b1 : W1 m ρ c (Proc.devRef .tc main_arg6) = ab1 m c := by
  dsimp only [W1, W0]; simp only [hostOps0]; after_results_simp
  try rfl
theorem w1_b2 : W1 m ρ c (Proc.devRef .tc main_arg9) = ab2 m c := by
  dsimp only [W1, W0]; simp only [hostOps0]; after_results_simp
  try rfl
theorem w1_B : W1 m ρ c (Proc.devRef .tc main_arg2) = aB m c := by
  dsimp only [W1, W0]; simp only [hostOps0]; after_results_simp
  try rfl
theorem w1_P : W1 m ρ c (Proc.devRef .tc main_arg3) = aP m c := by
  dsimp only [W1, W0]; simp only [hostOps0]; after_results_simp
  try rfl
theorem w1_Wout : W1 m ρ c (Proc.devRef .tc main_arg10) = aWout m c := by
  dsimp only [W1, W0]; simp only [hostOps0]; after_results_simp
  try rfl
theorem w1_bout : W1 m ρ c (Proc.devRef .tc main_arg11) = about m c := by
  dsimp only [W1, W0]; simp only [hostOps0]; after_results_simp
  try rfl

/-! ## The first pallas_call's output array -/

section Regions

variable (harr0 : ∀ (V : (c : Dev nD) → (b : Ref sig .tc) → Buf (Elt Ideal) ((c : Thread nD τ).loc b)) (c : Dev nD),
    (dat0 (F := Ideal) V c).arrAt 6 cfg0.N
      = Cert.Sage.layerK (N := 50000) (C := 128) (H := 64) (V c main_v26) (V c main_v12) (V c main_arg0) (V c main_v13) (V c main_v14) (V c main_arg6))
variable (harr1 : ∀ (V : (c : Dev nD) → (b : Ref sig .tc) → Buf (Elt Ideal) ((c : Thread nD τ).loc b)) (c : Dev nD),
    (dat1 (F := Ideal) V c).arrAt 6 cfg1.N
      = Cert.Sage.layerK (N := 50000) (C := 64) (H := 64) (V c main_v37) (V c main_v12) (V c main_v27) (V c main_v15) (V c main_v16) (V c main_arg9))

include harr0 in
/-- After the first call its output array is the first layer: the kernel's form of the layer over what the host prepared,
    which is the layer's common form (the reciprocal column and the transposed weights read entry by entry). -/
theorem w2_h1 : W2 m ρ c (Proc.devRef .tc main_v27) = H1 m c := by
  refine (W2_arr m ρ c 6).trans ((harr0 (V1 m ρ) c).trans ?_)
  dsimp only [V1]
  rw [w1_agg, w1_inv, w1_x, w1_wl1, w1_wr1, w1_b1]
  exact Cert.Sage.layerK_eq_layerSpec _ _ (RefDefs.deg (aE m c)) _ _ _ (aWl1 m c) (aWr1 m c) _ (invCol_apply _)
    (fun k j => transpose_ix2_apply (aWl1 m c) _ k j) (fun k j => transpose_ix2_apply (aWr1 m c) _ k j)

/-- The reciprocal column is an input of the first call: the call leaves it as it found it. -/
theorem w2_inv : W2 m ρ c (Proc.devRef .tc main_v12) = invCol (aE m c) :=
  ((W2_arr m ρ c 1).trans (((dat0 (V1 m ρ) c).arrAt_in 1 rfl _).trans (A_eq0 (V1 m ρ) c 1))).trans (w1_inv m ρ c)

/-! ## After the stretch between the two calls -/

include harr0 in
theorem w3_agg : W3 m ρ c (Proc.devRef .tc main_v37) = RefDefs.agg64 (H1 m c) (aE m c) := by
  dsimp only [W3]; simp only [hostOps1]; after_results_simp
  rw [W2_of_ne m ρ c main_v1 (by decide), W2_of_ne m ρ c main_v3 (by decide), w2_h1 m ρ c harr0, w1_src, w1_dst]
  rfl
theorem w3_inv : W3 m ρ c (Proc.devRef .tc main_v12) = invCol (aE m c) := by
  dsimp only [W3]; simp only [hostOps1]; after_results_simp
  exact w2_inv m ρ c
include harr0 in
theorem w3_h1 : W3 m ρ c (Proc.devRef .tc main_v27) = H1 m c := by
  dsimp only [W3]; simp only [hostOps1]; after_results_simp
  exact w2_h1 m ρ c harr0
theorem w3_wl2 : W3 m ρ c (Proc.devRef .tc main_v15) = transpose S64x64 [1, 0] (aWl2 m c) transposes_S64x64_S64x64_1_0 := by
  dsimp only [W3]; simp only [hostOps1]; after_results_simp
  rw [W2_of_ne m ρ c main_v15 (by decide)]; exact w1_wl2 m ρ c
theorem w3_wr2 : W3 m ρ c (Proc.devRef .tc main_v16) = transpose S64x64 [1, 0] (aWr2 m c) transposes_S64x64_S64x64_1_0 := by
  dsimp only [W3]; simp only [hostOps1]; after_results_simp
  rw [W2_of_ne m ρ c main_v16 (by decide)]; exact w1_wr2 m ρ c
theorem w3_b2 : W3 m ρ c (Proc.devRef .tc main_arg9) = ab2 m c := by
  dsimp only [W3]; simp only [hostOps1]; after_results_simp
  rw [W2_of_ne m ρ c main_arg9 (by decide)]; exact w1_b2 m ρ c
theorem w3_B : W3 m ρ c (Proc.devRef .tc main_arg2) = aB m c := by
  dsimp only [W3]; simp only [hostOps1]; after_results_simp
  rw [W2_of_ne m ρ c main_arg2 (by decide)]; exact w1_B m ρ c
theorem w3_P : W3 m ρ c (Proc.devRef .tc main_arg3) = aP m c := by
  dsimp only [W3]; simp only [hostOps1]; after_results_simp
  rw [W2_of_ne m ρ c main_arg3 (by decide)]; exact w1_P m ρ c
theorem w3_Wout : W3 m ρ c (Proc.devRef .tc main_arg10) = aWout m c := by
  dsimp only [W3]; simp only [hostOps1]; after_results_simp
  rw [W2_of_ne m ρ c main_arg10 (by decide)]; exact w1_Wout m ρ c
theorem w3_bout : W3 m ρ c (Proc.devRef .tc main_arg11) = about m c := by
  dsimp only [W3]; simp only [hostOps1]; after_results_simp
  rw [W2_of_ne m ρ c main_arg11 (by decide)]; exact w1_bout m ρ c

/-! ## The second pallas_call's output array -/

include harr0 harr1 in
/-- After the second call its output array is the second layer. -/
theorem w4_h2 : W4 m ρ c (Proc.devRef .tc main_v38) = H2 m c := by
  refine (W4_arr m ρ c 6).trans ((harr1 (V3 m ρ) c).trans ?_)
  dsimp only [V3]
  rw [w3_agg m ρ c harr0, w3_inv, w3_h1 m ρ c harr0, w3_wl2, w3_wr2, w3_b2]
  exact Cert.Sage.layerK_eq_layerSpec _ _ (RefDefs.deg (aE m c)) _ _ _ (aWl2 m c) (aWr2 m c) _ (invCol_apply _)
    (fun k j => transpose_ix2_apply (aWl2 m c) _ k j) (fun k j => transpose_ix2_apply (aWr2 m c) _ k j)

theorem w4_B : W4 m ρ c (Proc.devRef .tc main_arg2) = aB m c :=
  (W4_of_ne m ρ c main_arg2 (by decide)).trans (w3_B m ρ c)
theorem w4_P : W4 m ρ c (Proc.devRef .tc main_arg3) = aP m c :=
  (W4_of_ne m ρ c main_arg3 (by decide)).trans (w3_P m ρ c)
theorem w4_Wout : W4 m ρ c (Proc.devRef .tc main_arg10) = aWout m c :=
  (W4_of_ne m ρ c main_arg10 (by decide)).trans (w3_Wout m ρ c)
theorem w4_bout : W4 m ρ c (Proc.devRef .tc main_arg11) = about m c :=
  (W4_of_ne m ρ c main_arg11 (by decide)).trans (w3_bout m ρ c)

end Regions

/-! ## The host operations after the second call, one stretch at a time, from any contents `V` -/

section Tail

variable (V : Valuation τ sig (Elt Ideal))

theorem s5_v39 : after (hostOps2 (F := Ideal)) V (Proc.devRef .tc main_v39)
    = (broadcastInDim S500 ![] bcast_S_S500 (constantI S_ 32 0#32) : (⟨S500, .i32⟩ : BufTy).Contents (Elt Ideal)) := by
  simp only [hostOps2]; after_results_simp
theorem s5_c9 : after (hostOps2 (F := Ideal)) V (Proc.devRef .tc main_c_9) = (constantI S_ 32 0#32 : (⟨S_, .i32⟩ : BufTy).Contents (Elt Ideal)) := by
  simp only [hostOps2]; after_results_simp
theorem s5_keep_v38 : after (hostOps2 (F := Ideal)) V (Proc.devRef .tc main_v38) = V (Proc.devRef .tc main_v38) := by
  simp only [hostOps2]; after_results_simp
theorem s5_keep_arg2 : after (hostOps2 (F := Ideal)) V (Proc.devRef .tc main_arg2) = V (Proc.devRef .tc main_arg2) := by
  simp only [hostOps2]; after_results_simp
theorem s5_keep_arg3 : after (hostOps2 (F := Ideal)) V (Proc.devRef .tc main_arg3) = V (Proc.devRef .tc main_arg3) := by
  simp only [hostOps2]; after_results_simp
theorem s5_keep_arg10 : after (hostOps2 (F := Ideal)) V (Proc.devRef .tc main_arg10) = V (Proc.devRef .tc main_arg10) := by
  simp only [hostOps2]; after_results_simp
theorem s5_keep_arg11 : after (hostOps2 (F := Ideal)) V (Proc.devRef .tc main_arg11) = V (Proc.devRef .tc main_arg11) := by
  simp only [hostOps2]; after_results_simp

theorem s6_v40 : after (hostOps2_1 (F := Ideal)) V (Proc.devRef .tc main_v40)
    = maxsi (broadcastInDim S50000 ![] bcast_S_S50000 (V (Proc.devRef .tc main_c_9))) (V (Proc.devRef .tc main_arg2)) := by
  simp only [hostOps2_1]; after_results_simp
  try rfl
theorem s6_keep_v39 : after (hostOps2_1 (F := Ideal)) V (Proc.devRef .tc main_v39) = V (Proc.devRef .tc main_v39) := by
  simp only [hostOps2_1]; after_results_simp
theorem s6_keep_v38 : after (hostOps2_1 (F := Ideal)) V (Proc.devRef .tc main_v38) = V (Proc.devRef .tc main_v38) := by
  simp only [hostOps2_1]; after_results_simp
theorem s6_keep_arg3 : after (hostOps2_1 (F := Ideal)) V (Proc.devRef .tc main_arg3) = V (Proc.devRef .tc main_arg3) := by
  simp only [hostOps2_1]; after_results_simp
theorem s6_keep_arg10 : after (hostOps2_1 (F := Ideal)) V (Proc.devRef .tc main_arg10) = V (Proc.devRef .tc main_arg10) := by
  simp only [hostOps2_1]; after_results_simp
theorem s6_keep_arg11 : after (hostOps2_1 (F := Ideal)) V (Proc.devRef .tc main_arg11) = V (Proc.devRef .tc main_arg11) := by
  simp only [hostOps2_1]; after_results_simp

theorem s7_v48 : after (hostOps2_2 (F := Ideal)) V (Proc.devRef .tc main_v48)
    = Host.scatter scatter_S500_S50000x1_S50000_n_0_0_1 IntOp.addi (V (Proc.devRef .tc main_v39))
        (broadcastInDim S50000x1 ![0] bcast_S50000_S50000x1_0
          (select (cmpi .slt (V (Proc.devRef .tc main_v40)) (broadcastInDim S50000 ![] bcast_S_S50000 (constantI S_ 32 0#32)))
            (addi (V (Proc.devRef .tc main_v40)) (broadcastInDim S50000 ![] bcast_S_S50000 (constantI S_ 32 500#32))) (V (Proc.devRef .tc main_v40))))
        (broadcastInDim S50000 ![] bcast_S_S50000 (constantI S_ 32 1#32)) := by
  simp only [hostOps2_2]; after_results_simp
  try rfl
theorem s7_keep_v38 : after (hostOps2_2 (F := Ideal)) V (Proc.devRef .tc main_v38) = V (Proc.devRef .tc main_v38) := by
  simp only [hostOps2_2]; after_results_simp
theorem s7_keep_arg3 : after (hostOps2_2 (F := Ideal)) V (Proc.devRef .tc main_arg3) = V (Proc.devRef .tc main_arg3) := by
  simp only [hostOps2_2]; after_results_simp
theorem s7_keep_arg10 : after (hostOps2_2 (F := Ideal)) V (Proc.devRef .tc main_arg10) = V (Proc.devRef .tc main_arg10) := by
  simp only [hostOps2_2]; after_results_simp
theorem s7_keep_arg11 : after (hostOps2_2 (F := Ideal)) V (Proc.devRef .tc main_arg11) = V (Proc.devRef .tc main_arg11) := by
  simp only [hostOps2_2]; after_results_simp

theorem s8_v49 : after (hostOps2_3 (F := Ideal)) V (Proc.devRef .tc main_v49)
    = Host.reduceWindow IntOp.addi ![500] ![1] ![499] ![0] (V (Proc.devRef .tc main_v48))
        (broadcastInDim S_ ![] bcast_S_S_ (constantI S_ 32 0#32)) reduceWindows_S500_S500_w500s1p499_0 h_S_ := by
  simp only [hostOps2_3]; after_results_simp
  try rfl
theorem s8_keep_v48 : after (hostOps2_3 (F := Ideal)) V (Proc.devRef .tc main_v48) = V (Proc.devRef .tc main_v48) := by
  simp only [hostOps2_3]; after_results_simp
theorem s8_keep_v38 : after (hostOps2_3 (F := Ideal)) V (Proc.devRef .tc main_v38) = V (Proc.devRef .tc main_v38) := by
  simp only [hostOps2_3]; after_results_simp
theorem s8_keep_arg3 : after (hostOps2_3 (F := Ideal)) V (Proc.devRef .tc main_arg3) = V (Proc.devRef .tc main_arg3) := by
  simp only [hostOps2_3]; after_results_simp
theorem s8_keep_arg10 : after (hostOps2_3 (F := Ideal)) V (Proc.devRef .tc main_arg10) = V (Proc.devRef .tc main_arg10) := by
  simp only [hostOps2_3]; after_results_simp
theorem s8_keep_arg11 : after (hostOps2_3 (F := Ideal)) V (Proc.devRef .tc main_arg11) = V (Proc.devRef .tc main_arg11) := by
  simp only [hostOps2_3]; after_results_simp

end Tail

/-! ## The same stretches from the second call's exit contents: what each buffer the read-out needs holds -/

section Levels

variable (harr0 : ∀ (V : (c : Dev nD) → (b : Ref sig .tc) → Buf (Elt Ideal) ((c : Thread nD τ).loc b)) (c : Dev nD),
    (dat0 (F := Ideal) V c).arrAt 6 cfg0.N
      = Cert.Sage.layerK (N := 50000) (C := 128) (H := 64) (V c main_v26) (V c main_v12) (V c main_arg0) (V c main_v13) (V c main_v14) (V c main_arg6))
variable (harr1 : ∀ (V : (c : Dev nD) → (b : Ref sig .tc) → Buf (Elt Ideal) ((c : Thread nD τ).loc b)) (c : Dev nD),
    (dat1 (F := Ideal) V c).arrAt 6 cfg1.N
      = Cert.Sage.layerK (N := 50000) (C := 64) (H := 64) (V c main_v37) (V c main_v12) (V c main_v27) (V c main_v15) (V c main_v16) (V c main_arg9))

include harr0 harr1 in
theorem w5_v38 : W5 m ρ c (Proc.devRef .tc main_v38) = H2 m c :=
  (s5_keep_v38 (W4 m ρ c)).trans (w4_h2 m ρ c harr0 harr1)
theorem w5_arg2 : W5 m ρ c (Proc.devRef .tc main_arg2) = aB m c :=
  (s5_keep_arg2 (W4 m ρ c)).trans (w4_B m ρ c)
theorem w5_arg3 : W5 m ρ c (Proc.devRef .tc main_arg3) = aP m c :=
  (s5_keep_arg3 (W4 m ρ c)).trans (w4_P m ρ c)
theorem w5_arg10 : W5 m ρ c (Proc.devRef .tc main_arg10) = aWout m c :=
  (s5_keep_arg10 (W4 m ρ c)).trans (w4_Wout m ρ c)
theorem w5_arg11 : W5 m ρ c (Proc.devRef .tc main_arg11) = about m c :=
  (s5_keep_arg11 (W4 m ρ c)).trans (w4_bout m ρ c)
theorem w5_v39 : W5 m ρ c (Proc.devRef .tc main_v39)
    = (broadcastInDim S500 ![] bcast_S_S500 (constantI S_ 32 0#32) : (⟨S500, .i32⟩ : BufTy).Contents (Elt Ideal)) := s5_v39 (W4 m ρ c)
theorem w5_c9 : W5 m ρ c (Proc.devRef .tc main_c_9) = (constantI S_ 32 0#32 : (⟨S_, .i32⟩ : BufTy).Contents (Elt Ideal)) := s5_c9 (W4 m ρ c)
/-- The batch vector clipped below at zero. -/
theorem w6_v40 : W6 m ρ c (Proc.devRef .tc main_v40)
    = maxsi (broadcastInDim S50000 ![] bcast_S_S50000 (constantI S_ 32 0#32 : (⟨S_, .i32⟩ : BufTy).Contents (Elt Ideal))) (aB m c) := by
  refine (s6_v40 (W5 m ρ c)).trans ?_
  rw [w5_c9, w5_arg2]
theorem w6_v39 : W6 m ρ c (Proc.devRef .tc main_v39)
    = (broadcastInDim S500 ![] bcast_S_S500 (constantI S_ 32 0#32) : (⟨S500, .i32⟩ : BufTy).Contents (Elt Ideal)) :=
  (s6_keep_v39 (W5 m ρ c)).trans (w5_v39 m ρ c)
include harr0 harr1 in
theorem w6_v38 : W6 m ρ c (Proc.devRef .tc main_v38) = H2 m c :=
  (s6_keep_v38 (W5 m ρ c)).trans (w5_v38 m ρ c harr0 harr1)
theorem w6_arg3 : W6 m ρ c (Proc.devRef .tc main_arg3) = aP m c :=
  (s6_keep_arg3 (W5 m ρ c)).trans (w5_arg3 m ρ c)
theorem w6_arg10 : W6 m ρ c (Proc.devRef .tc main_arg10) = aWout m c :=
  (s6_keep_arg10 (W5 m ρ c)).trans (w5_arg10 m ρ c)
theorem w6_arg11 : W6 m ρ c (Proc.devRef .tc main_arg11) = about m c :=
  (s6_keep_arg11 (W5 m ρ c)).trans (w5_arg11 m ρ c)
/-- How many nodes each graph has. -/
theorem w7_v48 : W7 m ρ c (Proc.devRef .tc main_v48) = RefDefs.counts (aB m c) := by
  refine (s7_v48 (W6 m ρ c)).trans ?_
  rw [w6_v39, w6_v40]
  rfl
include harr0 harr1 in
theorem w7_v38 : W7 m ρ c (Proc.devRef .tc main_v38) = H2 m c :=
  (s7_keep_v38 (W6 m ρ c)).trans (w6_v38 m ρ c harr0 harr1)
theorem w7_arg3 : W7 m ρ c (Proc.devRef .tc main_arg3) = aP m c :=
  (s7_keep_arg3 (W6 m ρ c)).trans (w6_arg3 m ρ c)
theorem w7_arg10 : W7 m ρ c (Proc.devRef .tc main_arg10) = aWout m c :=
  (s7_keep_arg10 (W6 m ρ c)).trans (w6_arg10 m ρ c)
theorem w7_arg11 : W7 m ρ c (Proc.devRef .tc main_arg11) = about m c :=
  (s7_keep_arg11 (W6 m ρ c)).trans (w6_arg11 m ρ c)
/-- The running sum of the graph sizes. -/
theorem w8_v49 : W8 m ρ c (Proc.devRef .tc main_v49) = RefDefs.countsSum (aB m c) := by
  refine (s8_v49 (W7 m ρ c)).trans ?_
  rw [w7_v48]
  rfl
theorem w8_v48 : W8 m ρ c (Proc.devRef .tc main_v48) = RefDefs.counts (aB m c) :=
  (s8_keep_v48 (W7 m ρ c)).trans (w7_v48 m ρ c)
include harr0 harr1 in
theorem w8_v38 : W8 m ρ c (Proc.devRef .tc main_v38) = H2 m c :=
  (s8_keep_v38 (W7 m ρ c)).trans (w7_v38 m ρ c harr0 harr1)
theorem w8_arg3 : W8 m ρ c (Proc.devRef .tc main_arg3) = aP m c :=
  (s8_keep_arg3 (W7 m ρ c)).trans (w7_arg3 m ρ c)
theorem w8_arg10 : W8 m ρ c (Proc.devRef .tc main_arg10) = aWout m c :=
  (s8_keep_arg10 (W7 m ρ c)).trans (w7_arg10 m ρ c)
theorem w8_arg11 : W8 m ρ c (Proc.devRef .tc main_arg11) = about m c :=
  (s8_keep_arg11 (W7 m ρ c)).trans (w7_arg11 m ρ c)

/-! ## The result -/

include harr0 harr1 in
/-- The result buffer: the read-out of the second layer at each graph's centre row. -/
theorem kernel_out : W9 m ρ c (Proc.devRef .tc main_v64)
    = RefDefs.tail (H2 m c) (aB m c) (aP m c) (aWout m c) (about m c) := by
  have h38 := w8_v38 m ρ c harr0 harr1
  have h49 := w8_v49 m ρ c
  have h48 := w8_v48 m ρ c
  have h3 := w8_arg3 m ρ c
  have h10 := w8_arg10 m ρ c
  have h11 := w8_arg11 m ρ c
  show after (hostOps2_4 (F := Ideal)) (W8 m ρ c) (Proc.devRef .tc main_v64) = _
  generalize W8 m ρ c = V at h38 h49 h48 h3 h10 h11 ⊢
  simp only [hostOps2_4]; after_results_simp
  rw [h38, h49, h48, h3, h10, h11]
  rfl

end Levels

end Cert.Sage.KChain

end
-- ==== Proof.Region0.lean ====
/-
  The first combine call of the graph-convolution program, as one whole-array function.

  The call runs over 10 grid points. Point t reads row block t (5000 rows) of the neighbour sums [50000, 128], of the
  reciprocal column [50000, 1] and of the node features [50000, 128], reads the two weight matrices [128, 64] and the
  bias [64] whole, and writes row block t of the result [50000, 64]. Its body scales each neighbour sum by its row's
  reciprocal, contracts the scaled sums and the features with the two weight matrices over the 128 feature columns,
  adds the two products and the bias of the column, and clamps below at zero. On the extended reals the narrowing of
  the products' operands to the shorter float format is the identity, and a product accumulated from zero is its sum.
  Entry (5000 · t + p, j) of the result is therefore the layer's entry at that row and column, and since every row r
  lies in the block of point r / 5000, the array the call leaves is the layer's kernel form of the arrays it reads.
-/
import proofs.«138282_j28020366639688_1_alg».proof.Proof.Gen.KernelIdeal.Frame
import proofs.«138282_j28020366639688_1_alg».proof.Proof.Spec
import proofs.«138282_j28020366639688_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Region0

open Idealize.ShloMosaic Idealize.ShloMosaic.TcCoe Idealize.SL.Sem Cert.KernelIdeal Cert.KernelIdeal.Gen
open Idealize.ShloMosaic.ValueIdx
open Idealize.ShloMosaic.Pipeline (Dat)

/-! ## The products' operand indices

The contraction pairs axis 1 of the left operand [5000, 128] with axis 0 of the right operand [128, 64]; the result's
row comes from the left operand's axis 0 and its column from the right operand's axis 1. -/

/-- The left operand's row is the result's row. -/
theorem lhs_row (i : S5000x64.Idx) (r : dot_S5000x128_S128x64_S5000x64_1_0_0_1_n_n.contr.Idx) :
    (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- The left operand's column is the contracted coordinate. -/
theorem lhs_col (i : S5000x64.Idx) (r : dot_S5000x128_S128x64_S5000x64_1_0_0_1_n_n.contr.Idx) :
    (dot_S5000x128_S128x64_S5000x64_1_0_0_1_n_n.lhsIdx i r 1).val = (r ⟨0, by decide⟩).val :=
  dot_S5000x128_S128x64_S5000x64_1_0_0_1_n_n.lhsIdx_val_of_single rfl i r

/-- The right operand's row is the contracted coordinate. -/
theorem rhs_row (i : S5000x64.Idx) (r : dot_S5000x128_S128x64_S5000x64_1_0_0_1_n_n.contr.Idx) :
    (dot_S5000x128_S128x64_S5000x64_1_0_0_1_n_n.rhsIdx i r 0).val = (r ⟨0, by decide⟩).val :=
  dot_S5000x128_S128x64_S5000x64_1_0_0_1_n_n.rhsIdx_val_of_single rfl i r

/-- The right operand's column is the result's column. -/
theorem rhs_col (i : S5000x64.Idx) (r : dot_S5000x128_S128x64_S5000x64_1_0_0_1_n_n.contr.Idx) :
    (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A product accumulated from zero, at entry (p, q), is the sum over the 128 contracted columns of the left operand's
    row p times the right operand's column q. -/
theorem matmul_entry (a : FVec Ideal S5000x128 .bf16) (w : FVec Ideal S128x64 .bf16) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  refine (Ideal.matmul_constant_zero_apply dot_S5000x128_S128x64_S5000x64_1_0_0_1_n_n none a w (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k :=
    funext fun ax => Fin.ext (by
      match ax with
      | ⟨0, _⟩ => exact lhs_row _ _
      | ⟨1, _⟩ => exact (lhs_col _ _).trans hk)
  have er : dot_S5000x128_S128x64_S5000x64_1_0_0_1_n_n.rhsIdx (ix2 p q)
      ((contrEquiv1 dot_S5000x128_S128x64_S5000x64_1_0_0_1_n_n 128 rfl rfl).symm k) = ix2 k q :=
    funext fun ax => Fin.ext (by
      match ax with
      | ⟨0, _⟩ => exact (rhs_row _ _).trans hk
      | ⟨1, _⟩ => exact rhs_col _ _)
  rw [el, er]

/-! ## The body's operands at an entry

Every operand of the two products is an elementwise or layout image of a loaded block: a cast to the block's own shape
and the narrowing to the shorter format change no entry; the reciprocal column is spread across its row. -/

/-- The scaled neighbour sums: entry (p, k) is the sum at (p, k) times the reciprocal of row p. -/
theorem scaled_entry (x0 : Vec Ideal S5000x128 .f32) (x1 : Vec Ideal S5000x1 .f32)
    (h0 : S5000x128.ShapeCasts S5000x128) (h1 : S5000x1.ShapeCasts S5000x1) (hb : S5000x1.Broadcasts S5000x128)
    (hlt : FTy.bits .bf16 < FTy.bits .f32) (p : Fin 5000) (k : Fin 128) :
    (truncf .bf16 (mulf (shapeCast S5000x128 x0 h0 : FVec Ideal S5000x128 .f32)
        (broadcastTo S5000x128 (shapeCast S5000x1 x1 h1 : FVec Ideal S5000x1 .f32) hb)) hlt : FVec Ideal S5000x128 .bf16) (ix2 p k)
      = x0 (ix2 p k) * x1 (ix2 p (0 : Fin 1)) := by
  show (shapeCast S5000x128 x0 h0 : FVec Ideal S5000x128 .f32) (ix2 p k)
      * broadcastTo S5000x128 (shapeCast S5000x1 x1 h1 : FVec Ideal S5000x1 .f32) hb (ix2 p k) = _
  rw [shapeCast_self, shapeCast_self, Cert.LibKeepdims.bcast_col]

/-- A weight matrix cast to its own shape and narrowed keeps its entries. -/
theorem weight_entry (x : Vec Ideal S128x64 .f32) (h : S128x64.ShapeCasts S128x64) (hlt : FTy.bits .bf16 < FTy.bits .f32)
    (k : Fin 128) (q : Fin 64) :
    (truncf .bf16 (shapeCast S128x64 x h : FVec Ideal S128x64 .f32) hlt : FVec Ideal S128x64 .bf16) (ix2 k q) = x (ix2 k q) := by
  show (shapeCast S128x64 x h : FVec Ideal S128x64 .f32) (ix2 k q) = _
  rw [shapeCast_self]

/-- The bias vector [64], viewed as one row [1, 64] and spread down the 5000 rows, reads at (p, q) the bias at q. -/
theorem bias_entry (x5 : Vec Ideal S64 .f32) (h1 : S64.ShapeCasts S1x64) (h2 : S1x64.ShapeCasts S1x64)
    (hb : S1x64.Broadcasts S5000x64) (p : Fin 5000) (q : Fin 64) :
    broadcastTo S5000x64 (shapeCast S1x64 (shapeCast S1x64 x5 h1 : FVec Ideal S1x64 .f32) h2 : FVec Ideal S1x64 .f32) hb (ix2 p q)
      = x5 (ix1 q) := by
  rw [broadcastTo_1b_ab_apply, shapeCast_self, shapeCast_a_1a_apply]

/-- The body's one stored value at entry (p, q): the two sums over the 128 columns, plus the bias of column q, clamped
    below at zero. -/
theorem pay_apply (x0 : Vec Ideal S5000x128 .f32) (x1 : Vec Ideal S5000x1 .f32) (x2 : Vec Ideal S5000x128 .f32)
    (x3 x4 : Vec Ideal S128x64 .f32) (x5 : Vec Ideal S64 .f32) (p : Fin 5000) (q : Fin 64) :
    k0_pay1 (F := Ideal) x0 x1 x2 x3 x4 x5 (ix2 p q)
      = max (((∑ k : Fin 128, (x0 (ix2 p k) * x1 (ix2 p (0 : Fin 1))) * x3 (ix2 k q))
          + ∑ k : Fin 128, x2 (ix2 p k) * x4 (ix2 k q)) + x5 (ix1 q)) 0 := by
  unfold k0_pay1
  refine (maximumf_apply _ _ (ix2 p q)).trans ?_
  refine congrArg₂ max ?_ ?_
  · refine (addf_apply _ _ (ix2 p q)).trans ?_
    refine congrArg₂ (· + ·) ?_ (bias_entry x5 _ _ _ p q)
    refine (addf_apply _ _ (ix2 p q)).trans ?_
    refine congrArg₂ (· + ·) ?_ ?_
    · refine (matmul_entry _ _ p q).trans (Finset.sum_congr rfl fun k _ => ?_)
      exact congrArg₂ (· * ·) (scaled_entry x0 x1 _ _ _ _ p k) (weight_entry x3 _ _ k q)
    · refine (matmul_entry _ _ p q).trans (Finset.sum_congr rfl fun k _ => ?_)
      exact congrArg₂ (· * ·) rfl (weight_entry x4 _ _ k q)
  · exact Ideal.ofBits_zero_f32

/-! ## The index maps over the grid

Point t takes block (t, 0) of the three row-blocked inputs and of the output, and block 0 of the weights and the bias. -/

theorem zero_offsets : (![0, 0] : Fin 2 → Nat) = fun _ => 0 := funext fun a => by fin_cases a <;> rfl

theorem zero_offset : (![0] : Fin 1 → Nat) = fun _ => 0 := funext fun a => by fin_cases a; rfl

/-- The block index of every window at each of the 10 grid points. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-! ## An entry of the stored block from the blocks' entries -/

/-- If the six loaded blocks agree, on row p and column q, with six whole arrays on row n and column q, the stored value
    at (p, q) is the layer's entry (n, q) of those arrays. -/
theorem entry_of_blocks (x0 : Vec Ideal S5000x128 .f32) (x1 : Vec Ideal S5000x1 .f32) (x2 : Vec Ideal S5000x128 .f32)
    (x3 x4 : Vec Ideal S128x64 .f32) (x5 : Vec Ideal S64 .f32)
    (agg : (⟨2, ![50000, 128]⟩ : Shape).Idx → EReal) (s : (⟨2, ![50000, 1]⟩ : Shape).Idx → EReal)
    (x : (⟨2, ![50000, 128]⟩ : Shape).Idx → EReal) (wl wr : (⟨2, ![128, 64]⟩ : Shape).Idx → EReal)
    (b : (⟨1, ![64]⟩ : Shape).Idx → EReal) (n : Fin 50000) (p : Fin 5000) (q : Fin 64)
    (h0 : ∀ k : Fin 128, x0 (ix2 p k) = agg (ix2 n k))
    (h1 : x1 (ix2 p (0 : Fin 1)) = s (ix2 n (0 : Fin 1)))
    (h2 : ∀ k : Fin 128, x2 (ix2 p k) = x (ix2 n k))
    (h3 : ∀ k : Fin 128, x3 (ix2 k q) = wl (ix2 k q))
    (h4 : ∀ k : Fin 128, x4 (ix2 k q) = wr (ix2 k q))
    (h5 : x5 (ix1 q) = b (ix1 q)) :
    k0_pay1 (F := Ideal) x0 x1 x2 x3 x4 x5 (ix2 p q) = Cert.Sage.layerKAt agg s x wl wr b n q := by
  refine (pay_apply x0 x1 x2 x3 x4 x5 p q).trans ?_
  unfold Cert.Sage.layerKAt
  have e1 : (∑ k : Fin 128, (x0 (ix2 p k) * x1 (ix2 p (0 : Fin 1))) * x3 (ix2 k q))
      = ∑ k : Fin 128, (agg (ix2 n k) * s (ix2 n (0 : Fin 1))) * wl (ix2 k q) :=
    Finset.sum_congr rfl fun k _ => by rw [h0 k, h1, h3 k]
  have e2 : (∑ k : Fin 128, x2 (ix2 p k) * x4 (ix2 k q)) = ∑ k : Fin 128, x (ix2 n k) * wr (ix2 k q) :=
    Finset.sum_congr rfl fun k _ => by rw [h2 k, h4 k]
  rw [e1, e2, h5]

/-! ## The blocks at a grid point, read at global rows

An element of a window's block sits in the array, on each axis, at the block index times the block's extent plus its
coordinate inside the block: row p of a row block at point t is row 5000 · t + p; the weights and the bias are read whole. -/

section Blocks
variable (V : (c : Dev nD) → (b : Ref sig .tc) → Buf (Elt Ideal) ((c : Thread nD τ).loc b)) (c : Dev nD) (t : Fin cfg0.N)

/-- The neighbour sums' block. -/
theorem sums_block (p : Fin 5000) (k : Fin 128) (n : Fin 50000) (hn : n.val = 5000 * t.val + p.val) :
    iblk0 V c 0 t (ix2 p k) = V c main_v26 (ix2 n k) := by
  show V c main_v26 (((cfg0.win 0).blk t).view.emb (ix2 p k)) = V c main_v26 (ix2 n k)
  refine congrArg (V c main_v26) (funext fun a => Fin.ext ?_)
  obtain ⟨-, -, e0, e1, -⟩ := idx_facts t
  match a with
  | ⟨0, _⟩ => show win0_0.index t (0 : Fin 2) * 5000 + 1 * p.val = n.val; omega
  | ⟨1, _⟩ => show win0_0.index t (1 : Fin 2) * 128 + 1 * k.val = k.val; omega

/-- The reciprocal column's block. -/
theorem recip_block (p : Fin 5000) (n : Fin 50000) (hn : n.val = 5000 * t.val + p.val) :
    iblk0 V c 1 t (ix2 p (0 : Fin 1)) = V c main_v12 (ix2 n (0 : Fin 1)) := by
  show V c main_v12 (((cfg0.win 1).blk t).view.emb (ix2 p (0 : Fin 1))) = V c main_v12 (ix2 n (0 : Fin 1))
  refine congrArg (V c main_v12) (funext fun a => Fin.ext ?_)
  obtain ⟨-, -, -, -, e0, e1, -⟩ := idx_facts t
  match a with
  | ⟨0, _⟩ => show win0_1.index t (0 : Fin 2) * 5000 + 1 * p.val = n.val; omega
  | ⟨1, _⟩ => show win0_1.index t (1 : Fin 2) * 1 + 1 * 0 = 0; omega

/-- The features' block. -/
theorem feat_block (p : Fin 5000) (k : Fin 128) (n : Fin 50000) (hn : n.val = 5000 * t.val + p.val) :
    iblk0 V c 2 t (ix2 p k) = V c main_arg0 (ix2 n k) := by
  show V c main_arg0 (((cfg0.win 2).blk t).view.emb (ix2 p k)) = V c main_arg0 (ix2 n k)
  refine congrArg (V c main_arg0) (funext fun a => Fin.ext ?_)
  obtain ⟨-, -, -, -, -, -, e0, e1, -⟩ := idx_facts t
  match a with
  | ⟨0, _⟩ => show win0_2.index t (0 : Fin 2) * 5000 + 1 * p.val = n.val; omega
  | ⟨1, _⟩ => show win0_2.index t (1 : Fin 2) * 128 + 1 * k.val = k.val; omega

/-- The first weight matrix, whole at every point. -/
theorem wl_block (k : Fin 128) (q : Fin 64) : iblk0 V c 3 t (ix2 k q) = V c main_v13 (ix2 k q) := by
  show V c main_v13 (((cfg0.win 3).blk t).view.emb (ix2 k q)) = V c main_v13 (ix2 k q)
  refine congrArg (V c main_v13) (funext fun a => Fin.ext ?_)
  obtain ⟨-, -, -, -, -, -, -, -, e0, e1, -⟩ := idx_facts t
  match a with
  | ⟨0, _⟩ => show win0_3.index t (0 : Fin 2) * 128 + 1 * k.val = k.val; omega
  | ⟨1, _⟩ => show win0_3.index t (1 : Fin 2) * 64 + 1 * q.val = q.val; omega

/-- The second weight matrix, whole at every point. -/
theorem wr_block (k : Fin 128) (q : Fin 64) : iblk0 V c 4 t (ix2 k q) = V c main_v14 (ix2 k q) := by
  show V c main_v14 (((cfg0.win 4).blk t).view.emb (ix2 k q)) = V c main_v14 (ix2 k q)
  refine congrArg (V c main_v14) (funext fun a => Fin.ext ?_)
  obtain ⟨-, -, -, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 64 + 1 * q.val = q.val; omega

/-- The bias, whole at every point. -/
theorem bias_block (q : Fin 64) : iblk0 V c 5 t (ix1 q) = V c main_arg6 (ix1 q) := by
  show V c main_arg6 (((cfg0.win 5).blk t).view.emb (ix1 q)) = V c main_arg6 (ix1 q)
  refine congrArg (V c main_arg6) (funext fun a => Fin.ext ?_)
  obtain ⟨-, -, -, -, -, -, -, -, -, -, -, -, e0⟩ := idx_facts t
  match a with
  | ⟨0, _⟩ => show win0_5.index t (0 : Fin 1) * 64 + 1 * q.val = q.val; omega

/-- Entry (p, q) of the output's block at point t is entry (5000 · t + p, q) of the output array. -/
theorem out_emb (p : Fin 5000) (q : Fin 64) (n : Fin 50000) (hn : n.val = 5000 * t.val + p.val) :
    ((cfg0.win 6).blk t).view.emb (ix2 p q) = ix2 n q := by
  refine funext fun a => Fin.ext ?_
  obtain ⟨e0, e1, -⟩ := idx_facts t
  match a with
  | ⟨0, _⟩ => show win0_6.index t (0 : Fin 2) * 5000 + 1 * p.val = n.val; omega
  | ⟨1, _⟩ => show win0_6.index t (1 : Fin 2) * 64 + 1 * q.val = q.val; omega

/-- What point t writes back is block t of the layer's kernel form of the arrays the call reads. -/
theorem flushed_eq :
    (dat0 (F := Ideal) V c).flushed 6 t = ((cfg0.win 6).blk t).view.read (Elt Ideal)
      (Cert.Sage.layerK (N := 50000) (C := 128) (H := 64) (V c main_v26) (V c main_v12) (V c main_arg0) (V c main_v13) (V c main_v14) (V c main_arg6)) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x64) zero_offsets, View.ld_unit_zero (S := S64) zero_offset]
  funext j
  obtain ⟨p, q, rfl⟩ : ∃ (p : Fin 5000) (q : Fin 64), j = ix2 p q := ⟨j 0, j 1, eq_ix2 j⟩
  have hN : t.val < 10 := lt_of_lt_of_eq t.isLt N_0
  have hp : p.val < 5000 := p.isLt
  obtain ⟨n, hn⟩ : ∃ n : Fin 50000, n.val = 5000 * t.val + p.val := ⟨⟨5000 * t.val + p.val, by omega⟩, rfl⟩
  show k0_pay1 (F := Ideal) (iblk0 V c 0 t) (iblk0 V c 1 t) (iblk0 V c 2 t) (iblk0 V c 3 t) (iblk0 V c 4 t) (iblk0 V c 5 t) (ix2 p q)
    = Cert.Sage.layerK (N := 50000) (C := 128) (H := 64) (V c main_v26) (V c main_v12) (V c main_arg0) (V c main_v13) (V c main_v14) (V c main_arg6)
        (((cfg0.win 6).blk t).view.emb (ix2 p q))
  rw [out_emb t p q n hn, Cert.Sage.layerK_apply]
  exact entry_of_blocks (iblk0 V c 0 t) (iblk0 V c 1 t) (iblk0 V c 2 t) (iblk0 V c 3 t) (iblk0 V c 4 t) (iblk0 V c 5 t)
    (V c main_v26) (V c main_v12) (V c main_arg0) (V c main_v13) (V c main_v14) (V c main_arg6) n p q
    (fun k => sums_block V c t p k n hn) (recip_block V c t p n hn) (fun k => feat_block V c t p k n hn)
    (fun k => wl_block V c t k q) (fun k => wr_block V c t k q) (bias_block V c t q)

end Blocks

/-! ## Every row is in some point's block -/

/-- An index of the output array is in point t's block iff each coordinate is in the block's range on its axis. -/
theorem mem_blk (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v27).slice (win0_6.rect t)).set ↔ _
  rw [View.set_slice_whole, Rect.mem_set_unit]
  exact Iff.rfl

/-- Row r of the output lies in the block of point r / 5000, and every point writes its block back. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e0, e1, -⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-! ## The array the call leaves -/

/-- The array the call leaves in its output window is the layer's kernel form of the arrays it reads: every point
    writes back its block of that one function, and the blocks cover the array. -/
theorem arr (V : (c : Dev nD) → (b : Ref sig .tc) → Buf (Elt Ideal) ((c : Thread nD τ).loc b)) (c : Dev nD) :
    (dat0 (F := Ideal) V c).arrAt 6 cfg0.N
      = Cert.Sage.layerK (N := 50000) (C := 128) (H := 64) (V c main_v26) (V c main_v12) (V c main_arg0) (V c main_v13) (V c main_v14) (V c main_arg6) :=
  (dat0 (F := Ideal) V c).arrAt_eq_of_cover 6 _ (fun t _ => flushed_eq V c t) cover

end Cert.Sage.Region0

end
-- ==== Proof.Region1.lean ====
/-
  What the second launch of the combine kernel leaves in its output array, as one function of the arrays it reads.

  The launch has ten points. At point t it reads row block t (5000 rows) of the neighbour sums [50000, 64], of the
  reciprocal column [50000, 1] and of the features [50000, 64], reads both weight matrices [64, 64] and the bias [64]
  whole, and writes row block t of the output [50000, 64]. The stored block, at (p, q), is
    max(Σₖ (sums(p,k) · recip(p,0)) · wl(k,q) + Σₖ feat(p,k) · wr(k,q) + bias(q), 0),
  the two sums being the two matrix products into a zero accumulator read at an entry (the narrowing of the factors
  to sixteen bits is the identity on extended reals). Entry (p, q) of a row block at point t is entry (5000 t + p, q)
  of its array, so what point t writes is row block t of the layer of the six arrays; the row blocks of the ten points
  cover the output (row r lies in the block of point r / 5000), hence the output ends holding that layer.
-/
import proofs.«138282_j28020366639688_1_alg».proof.Proof.Gen.KernelIdeal.Frame
import proofs.«138282_j28020366639688_1_alg».proof.Proof.Spec
import proofs.«138282_j28020366639688_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Region1

open Idealize.ShloMosaic Idealize.ShloMosaic.TcCoe Idealize.SL.Sem Cert.KernelIdeal Cert.KernelIdeal.Gen
open Idealize.ShloMosaic.ValueIdx
open Idealize.ShloMosaic.Pipeline (Dat)

/-! ## The body's arithmetic at one entry -/

/-- Axis 0 of the left factor's index is the output row. -/
theorem lhs_axis0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- Axis 1 of the left factor's index is the contracted coordinate. -/
theorem lhs_axis1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k

/-- Axis 0 of the right factor's index is the contracted coordinate. -/
theorem rhs_axis0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k

/-- Axis 1 of the right factor's index is the output column. -/
theorem rhs_axis1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A [5000, 64] by [64, 64] product into the zero accumulator, at (p, q), is the sum over k of the entries (p, k) times (k, q). -/
theorem matmul_entry {φ₁ φ₂ : FTy} (lhs : FVec Ideal S5000x64 φ₁) (rhs : FVec Ideal S64x64 φ₂) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  show FloatOps.matmul dot_S5000x64_S64x64_S5000x64_1_0_0_1_n_n none lhs rhs (constant (F := Ideal) S5000x64 .f32 0x00000000#32) (ix2 p q) = _
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun a => Fin.ext (by
      match a with
      | ⟨0, _⟩ => exact lhs_axis0 _ _
      | ⟨1, _⟩ => exact (lhs_axis1 _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun a => Fin.ext (by
      match a with
      | ⟨0, _⟩ => exact (rhs_axis0 _ _).trans hk
      | ⟨1, _⟩ => exact rhs_axis1 _ _)
  rw [el, er]

/-- The bias [64] viewed as one row [1, 64] and repeated down 5000 rows reads, at (p, q), the bias at q. -/
theorem bias_entry (x5 : Vec Ideal S64 .f32) (p : Fin 5000) (q : Fin 64) :
    broadcastTo S5000x64 (shapeCast S1x64 (shapeCast S1x64 x5 shapeCasts_S64_S1x64) shapeCasts_S1x64_S1x64)
      broadcasts_S1x64_S5000x64 (ix2 p q) = x5 (ix1 q) := by
  rw [shapeCast_self]
  refine (broadcastTo_1b_ab_apply _ broadcasts_S1x64_S5000x64 p q).trans ?_
  exact shapeCast_a_1a_apply x5 shapeCasts_S64_S1x64 (0 : Fin 1) q

/-- The body's stored value at entry (p, q) of the block: the neighbour sums scaled by the reciprocal column times the
    first weights, plus the features times the second weights, plus the bias, clamped below at zero. -/
theorem pay_apply (x0 : Vec Ideal S5000x64 .f32) (x1 : Vec Ideal S5000x1 .f32) (x2 : Vec Ideal S5000x64 .f32)
    (x3 x4 : Vec Ideal S64x64 .f32) (x5 : Vec Ideal S64 .f32) (p : Fin 5000) (q : Fin 64) :
    k1_pay1 (F := Ideal) x0 x1 x2 x3 x4 x5 (ix2 p q)
      = max (((∑ k : Fin 64, (x0 (ix2 p k) * x1 (ix2 p (0 : Fin 1))) * x3 (ix2 k q))
          + ∑ k : Fin 64, x2 (ix2 p k) * x4 (ix2 k q)) + x5 (ix1 q)) 0 := by
  unfold k1_pay1
  rw [maximumf_apply, addf_apply, addf_apply, matmul_entry, matmul_entry, bias_entry, broadcast_apply]
  simp only [truncf_apply, shapeCast_self, mulf_apply, Cert.LibKeepdims.bcast_col]
  show max _ (Ideal.ofBits .f32 0x00000000#32) = _
  rw [Ideal.ofBits_zero_f32]

/-! ## The blocks the body reads, as entries of the arrays -/

section Blocks

variable (V : (c : Dev nD) → (b : Ref sig .tc) → Buf (Elt Ideal) ((c : Thread nD τ).loc b))

/-- The index maps over the ten points: the windows of the neighbour sums, the reciprocal column, the features and the
    output take row block t at point t; the two weight matrices and the bias are taken whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ t.val < 10 :=
  (by decide +kernel : ∀ t : Fin grid1.N, _)

/-- Entry (p, k) of the neighbour sums' block at point t is entry (5000 t + p, k) of the array. -/
theorem agg_blk (c : Dev nD) (t : Fin cfg1.N) (p : Fin 5000) (k : Fin 64) (r : Fin 50000) (hr : r.val = 5000 * t.val + p.val) :
    iblk1 V c 0 t (ix2 p k) = V c main_v37 (ix2 r k) := by
  show V c main_v37 (((cfg1.win 0).blk t).view.emb (ix2 p k)) = V c main_v37 (ix2 r k)
  refine congrArg (V c main_v37) (funext fun a => Fin.ext ?_)
  obtain ⟨e0, e1, -⟩ := idx_facts t
  match a with
  | ⟨0, _⟩ => show win1_0.index t (0 : Fin 2) * 5000 + 1 * p.val = r.val; omega
  | ⟨1, _⟩ => show win1_0.index t (1 : Fin 2) * 64 + 1 * k.val = k.val; omega

/-- Entry (p, 0) of the reciprocal column's block at point t is entry (5000 t + p, 0) of the column. -/
theorem recip_blk (c : Dev nD) (t : Fin cfg1.N) (p : Fin 5000) (u : Fin 1) (r : Fin 50000) (hr : r.val = 5000 * t.val + p.val) :
    iblk1 V c 1 t (ix2 p u) = V c main_v12 (ix2 r u) := by
  show V c main_v12 (((cfg1.win 1).blk t).view.emb (ix2 p u)) = V c main_v12 (ix2 r u)
  refine congrArg (V c main_v12) (funext fun a => Fin.ext ?_)
  obtain ⟨-, -, e0, e1, -⟩ := idx_facts t
  match a with
  | ⟨0, _⟩ => show win1_1.index t (0 : Fin 2) * 5000 + 1 * p.val = r.val; omega
  | ⟨1, _⟩ => show win1_1.index t (1 : Fin 2) * 1 + 1 * u.val = u.val; omega

/-- Entry (p, k) of the features' block at point t is entry (5000 t + p, k) of the array. -/
theorem feat_blk (c : Dev nD) (t : Fin cfg1.N) (p : Fin 5000) (k : Fin 64) (r : Fin 50000) (hr : r.val = 5000 * t.val + p.val) :
    iblk1 V c 2 t (ix2 p k) = V c main_v27 (ix2 r k) := by
  show V c main_v27 (((cfg1.win 2).blk t).view.emb (ix2 p k)) = V c main_v27 (ix2 r k)
  refine congrArg (V c main_v27) (funext fun a => Fin.ext ?_)
  obtain ⟨-, -, -, -, e0, e1, -⟩ := idx_facts t
  match a with
  | ⟨0, _⟩ => show win1_2.index t (0 : Fin 2) * 5000 + 1 * p.val = r.val; omega
  | ⟨1, _⟩ => show win1_2.index t (1 : Fin 2) * 64 + 1 * k.val = k.val; omega

/-- The first weight matrix's block at every point is the whole matrix. -/
theorem wl_blk (c : Dev nD) (t : Fin cfg1.N) (k : Fin 64) (q : Fin 64) :
    iblk1 V c 3 t (ix2 k q) = V c main_v15 (ix2 k q) := by
  show V c main_v15 (((cfg1.win 3).blk t).view.emb (ix2 k q)) = V c main_v15 (ix2 k q)
  refine congrArg (V c main_v15) (funext fun a => Fin.ext ?_)
  obtain ⟨-, -, -, -, -, -, e0, e1, -⟩ := idx_facts t
  match a with
  | ⟨0, _⟩ => show win1_3.index t (0 : Fin 2) * 64 + 1 * k.val = k.val; omega
  | ⟨1, _⟩ => show win1_3.index t (1 : Fin 2) * 64 + 1 * q.val = q.val; omega

/-- The second weight matrix's block at every point is the whole matrix. -/
theorem wr_blk (c : Dev nD) (t : Fin cfg1.N) (k : Fin 64) (q : Fin 64) :
    iblk1 V c 4 t (ix2 k q) = V c main_v16 (ix2 k q) := by
  show V c main_v16 (((cfg1.win 4).blk t).view.emb (ix2 k q)) = V c main_v16 (ix2 k q)
  refine congrArg (V c main_v16) (funext fun a => Fin.ext ?_)
  obtain ⟨-, -, -, -, -, -, -, -, e0, e1, -⟩ := idx_facts t
  match a with
  | ⟨0, _⟩ => show win1_4.index t (0 : Fin 2) * 64 + 1 * k.val = k.val; omega
  | ⟨1, _⟩ => show win1_4.index t (1 : Fin 2) * 64 + 1 * q.val = q.val; omega

/-- The bias's block at every point is the whole bias. -/
theorem bias_blk (c : Dev nD) (t : Fin cfg1.N) (q : Fin 64) :
    iblk1 V c 5 t (ix1 q) = V c main_arg9 (ix1 q) := by
  show V c main_arg9 (((cfg1.win 5).blk t).view.emb (ix1 q)) = V c main_arg9 (ix1 q)
  refine congrArg (V c main_arg9) (funext fun a => Fin.ext ?_)
  obtain ⟨-, -, -, -, -, -, -, -, -, -, e0, -⟩ := idx_facts t
  match a with
  | ⟨0, _⟩ => show win1_5.index t (0 : Fin 1) * 64 + 1 * q.val = q.val; omega

/-- Entry (p, q) of the output's block at point t sits at (5000 t + p, q) of the output array. -/
theorem out_emb (t : Fin cfg1.N) (p : Fin 5000) (q : Fin 64) (r : Fin 50000) (hr : r.val = 5000 * t.val + p.val) :
    ((cfg1.win 6).blk t).view.emb (ix2 p q) = ix2 r q := by
  refine funext fun a => Fin.ext ?_
  obtain ⟨-, -, -, -, -, -, -, -, -, -, -, e0, e1, -⟩ := idx_facts t
  match a with
  | ⟨0, _⟩ => show win1_6.index t (0 : Fin 2) * 5000 + 1 * p.val = r.val; omega
  | ⟨1, _⟩ => show win1_6.index t (1 : Fin 2) * 64 + 1 * q.val = q.val; omega

/-! ## What a point writes back, and the whole array -/

/-- The zero offsets of a rank-2 whole-block access, as a function. -/
theorem hz : (![0, 0] : Fin 2 → Nat) = fun _ => 0 := funext fun a => by fin_cases a <;> rfl
/-- The zero offset of a rank-1 whole-block access, as a function. -/
theorem hz1 : (![0] : Fin 1 → Nat) = fun _ => 0 := funext fun a => by fin_cases a <;> rfl

/-- What point t writes back to the output array is row block t of the layer of the six arrays: entry (p, q) of the
    stored block reads row 5000 t + p of the neighbour sums, the reciprocal column and the features, the whole of both
    weight matrices' column q and the bias at q, which is the layer's entry (5000 t + p, q). -/
theorem flushed_eq (c : Dev nD) (t : Fin cfg1.N) :
    (dat1 (F := Ideal) V c).flushed 6 t = ((cfg1.win 6).blk t).view.read (Elt Ideal)
      (Cert.Sage.layerK (N := 50000) (C := 64) (H := 64) (V c main_v37) (V c main_v12) (V c main_v27) (V c main_v15) (V c main_v16) (V c main_arg9)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S64) hz1]
  funext j
  obtain ⟨p, q, rfl⟩ : ∃ (p : Fin 5000) (q : Fin 64), j = ix2 p q := ⟨j 0, j 1, eq_ix2 j⟩
  obtain ⟨-, -, -, -, -, -, -, -, -, -, -, -, -, ht⟩ := idx_facts t
  have hr : (⟨5000 * t.val + p.val, by omega⟩ : Fin 50000).val = 5000 * t.val + p.val := rfl
  show k1_pay1 (F := Ideal) (iblk1 V c 0 t) (iblk1 V c 1 t) (iblk1 V c 2 t) (iblk1 V c 3 t) (iblk1 V c 4 t) (iblk1 V c 5 t) (ix2 p q)
    = Cert.Sage.layerK (N := 50000) (C := 64) (H := 64) (V c main_v37) (V c main_v12) (V c main_v27) (V c main_v15) (V c main_v16) (V c main_arg9)
        (((cfg1.win 6).blk t).view.emb (ix2 p q))
  rw [out_emb t p q _ hr, Cert.Sage.layerK_apply]
  refine (pay_apply _ _ _ _ _ _ p q).trans ?_
  unfold Cert.Sage.layerKAt
  simp only [agg_blk V c t p _ _ hr, recip_blk V c t p _ _ hr, feat_blk V c t p _ _ hr, wl_blk, wr_blk, bias_blk]

/-- An index of the output array is in point t's block iff each coordinate is in the block's range on its axis. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v38).slice (win1_6.rect t)).set ↔ _
  rw [View.set_slice_whole, Rect.mem_set_unit]
  exact Iff.rfl

/-- Every index of the output array is in some point's block: row r is in the block of point r / 5000. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, -, -, -, e0, e1, -⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

end Blocks

/-- The region's output array after its ten points is the layer of the six arrays the region reads: every point writes
    its row block of that one function, and the row blocks cover the array. -/
theorem arr (V : (c : Dev nD) → (b : Ref sig .tc) → Buf (Elt Ideal) ((c : Thread nD τ).loc b)) (c : Dev nD) :
    (dat1 (F := Ideal) V c).arrAt 6 cfg1.N
      = Cert.Sage.layerK (N := 50000) (C := 64) (H := 64) (V c main_v37) (V c main_v12) (V c main_v27) (V c main_v15) (V c main_v16) (V c main_arg9) :=
  (dat1 (F := Ideal) V c).arrAt_eq_of_cover 6 _ (fun t _ => flushed_eq V c t) cover

end Cert.Sage.Region1

end
-- ==== Proof.RefRun.lean ====
/-
  The reference program's run, as one straight line of host operations.

  @main is a sequence of host operations with four calls: the clamp below at zero after each of the two layers, the
  clip of the batch vector below at zero, and the running sum of the graph sizes (whose body is itself one call). A call
  executes the callee's body on the operands, so at each call site the callee's operations stand in the call's place,
  over that call's own buffers: the constant zero, its broadcast and the maximum for a clamp; the bound converted,
  broadcast and the maximum for the clip; the constant zero, its rank-zero broadcast and the windowed sum for the running
  sum. The program is then the list of these operations run in order; every weakly fair execution terminates with each
  buffer at the fold of the operations' results over the launch contents, and no operation writes an argument.
-/
import proofs.«138282_j28020366639688_1_alg».proof.Proof.Gen.ReferenceIdeal
import Idealize.ShloMosaic.Lib.StableHlo.Run

set_option Elab.async false

noncomputable section

namespace Cert.ReferenceIdeal.RefRun

open Idealize.ShloMosaic Idealize.ShloMosaic.TcCoe Idealize.ShloMosaic.StableHlo Idealize.SL.Sem Cert.ReferenceIdeal
open Cert.ReferenceIdeal.Facts₀ Cert.ReferenceIdeal.Facts

variable {F : FTy → Type} [FloatOps F]

/-- @main's operations in program order, each call's callee operations inline over the call's buffers: the first
    layer (the edge rows, the wrapped sources, the neighbour sums, the degrees, the quotient, the two products, the
    bias), its clamp (three operations), the second layer the same, its clamp (three), the batch vector's clip (three),
    the graph sizes, their running sum (three), the centre rows and the read-out. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.unary main_arg4 main_v23 ((transpose S128x64 [1, 0] · transposes_S64x128_S128x64_1_0) : (⟨S64x128, .f32⟩ : BufTy).Contents (Elt F) → (⟨S128x64, .f32⟩ : BufTy).Contents (Elt F)),
    StableHlo.binary main_v22 main_v23 main_v24 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg5 main_v25 ((transpose S128x64 [1, 0] · transposes_S64x128_S128x64_1_0) : (⟨S64x128, .f32⟩ : BufTy).Contents (Elt F) → (⟨S128x64, .f32⟩ : BufTy).Contents (Elt F)),
    StableHlo.binary main_arg0 main_v25 main_v26 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v24 main_v26 main_v27 (addf : (⟨S50000x64, .f32⟩ : BufTy).Contents (Elt F) → (⟨S50000x64, .f32⟩ : BufTy).Contents (Elt F) → (⟨S50000x64, .f32⟩ : BufTy).Contents (Elt F)),
    StableHlo.unary main_arg6 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v29 main_v30 (addf : (⟨S50000x64, .f32⟩ : BufTy).Contents (Elt F) → (⟨S50000x64, .f32⟩ : BufTy).Contents (Elt F) → (⟨S50000x64, .f32⟩ : BufTy).Contents (Elt F)),
    TRef.nullary main_call0.cst (constant S_ .f32 0x00000000#32),
    TRef.unary main_call0.cst main_call0.v0 (broadcastInDim S50000x64 ![] bcast_S_S50000x64),
    TRef.binary (.of main_v30 : TRef sig ⟨S50000x64, .f32⟩) main_call0.v0 main_call0.v1 maximumf,
    StableHlo.nullary main_c_4 (constantI S_ 32 0#32),
    StableHlo.unary main_c_4 main_v32 (broadcastInDim S800000 ![] bcast_S_S800000 : (⟨S_, .i32⟩ : BufTy).Contents (Elt F) → (⟨S800000, .i32⟩ : BufTy).Contents (Elt F)),
    StableHlo.binary main_v1 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v34 (broadcastInDim S800000 ![] bcast_S_S800000 : (⟨S_, .i32⟩ : BufTy).Contents (Elt F) → (⟨S800000, .i32⟩ : BufTy).Contents (Elt F)),
    StableHlo.binary main_v1 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_6 (constant S_ .f32 0x00000000#32),
    StableHlo.unary main_cst_6 main_v39 (broadcastInDim S50000x64 ![] bcast_S_S50000x64 : (⟨S_, .f32⟩ : BufTy).Contents (Elt F) → (⟨S50000x64, .f32⟩ : BufTy).Contents (Elt F)),
    StableHlo.unary main_v3 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_7 (constant S_ .f32 0x3F800000#32),
    StableHlo.unary main_cst_7 main_v42 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v43 (broadcastInDim S50000 ![] bcast_S_S50000 : (⟨S_, .f32⟩ : BufTy).Contents (Elt F) → (⟨S50000, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v46 (broadcastInDim S50000 ![] bcast_S_S50000 : (⟨S_, .f32⟩ : BufTy).Contents (Elt F) → (⟨S50000, .f32⟩ : BufTy).Contents (Elt F)),
    StableHlo.binary main_v45 main_v46 main_v47 (maximumf : (⟨S50000, .f32⟩ : BufTy).Contents (Elt F) → (⟨S50000, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (broadcastInDim S50000x64 ![0, 1] bcast_S50000x1_S50000x64_0_1 : (⟨S50000x1, .f32⟩ : BufTy).Contents (Elt F) → (⟨S50000x64, .f32⟩ : BufTy).Contents (Elt F)),
    StableHlo.binary main_v41 main_v49 main_v50 (Host.divf : (⟨S50000x64, .f32⟩ : BufTy).Contents (Elt F) → (⟨S50000x64, .f32⟩ : BufTy).Contents (Elt F) → (⟨S50000x64, .f32⟩ : BufTy).Contents (Elt F)),
    StableHlo.unary main_arg7 main_v51 ((transpose S64x64 [1, 0] · transposes_S64x64_S64x64_1_0) : (⟨S64x64, .f32⟩ : BufTy).Contents (Elt F) → (⟨S64x64, .f32⟩ : BufTy).Contents (Elt F)),
    StableHlo.binary main_v50 main_v51 main_v52 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v53 ((transpose S64x64 [1, 0] · transposes_S64x64_S64x64_1_0) : (⟨S64x64, .f32⟩ : BufTy).Contents (Elt F) → (⟨S64x64, .f32⟩ : BufTy).Contents (Elt F)),
    StableHlo.binary main_v31 main_v53 main_v54 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.binary main_v52 main_v54 main_v55 (addf : (⟨S50000x64, .f32⟩ : BufTy).Contents (Elt F) → (⟨S50000x64, .f32⟩ : BufTy).Contents (Elt F) → (⟨S50000x64, .f32⟩ : BufTy).Contents (Elt F)),
    StableHlo.unary main_arg9 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S50000x64 ![0, 1] bcast_S1x64_S50000x64_0_1 : (⟨S1x64, .f32⟩ : BufTy).Contents (Elt F) → (⟨S50000x64, .f32⟩ : BufTy).Contents (Elt F)),
    StableHlo.binary main_v55 main_v57 main_v58 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v58 : TRef sig ⟨S50000x64, .f32⟩) main_call1.v0 main_call1.v1 maximumf,
    StableHlo.nullary main_c_10 (constantI S_ 32 0#32),
    StableHlo.unary main_c_10 main_v60 (broadcastInDim S500 ![] bcast_S_S500 : (⟨S_, .i32⟩ : BufTy).Contents (Elt F) → (⟨S500, .i32⟩ : BufTy).Contents (Elt F)),
    StableHlo.nullary main_c_11 (constantI S_ 32 0#32),
    TRef.unary (.of main_c_11 : TRef sig ⟨S_, .i32⟩) main_call2.v0 id,
    TRef.unary main_call2.v0 main_call2.v1 (broadcastInDim S50000 ![] bcast_S_S50000),
    TRef.binary main_call2.v1 (.of main_arg2 : TRef sig ⟨S50000, .i32⟩) main_call2.v2 maxsi,
    StableHlo.nullary main_c_12 (constantI S_ 32 0#32),
    StableHlo.unary main_c_12 main_v62 (broadcastInDim S50000 ![] bcast_S_S50000 : (⟨S_, .i32⟩ : BufTy).Contents (Elt F) → (⟨S50000, .i32⟩ : BufTy).Contents (Elt F)),
    StableHlo.binary main_v61 main_v62 main_v63 (cmpi .slt : (⟨S50000, .i32⟩ : BufTy).Contents (Elt F) → (⟨S50000, .i32⟩ : BufTy).Contents (Elt F) → (⟨S50000, .i1⟩ : BufTy).Contents (Elt F)),
    StableHlo.nullary main_c_13 (constantI S_ 32 500#32),
    StableHlo.unary main_c_13 main_v64 (broadcastInDim S50000 ![] bcast_S_S50000 : (⟨S_, .i32⟩ : BufTy).Contents (Elt F) → (⟨S50000, .i32⟩ : BufTy).Contents (Elt F)),
    StableHlo.binary main_v61 main_v64 main_v65 (addi : (⟨S50000, .i32⟩ : BufTy).Contents (Elt F) → (⟨S50000, .i32⟩ : BufTy).Contents (Elt F) → (⟨S50000, .i32⟩ : BufTy).Contents (Elt F)),
    StableHlo.ternary main_v63 main_v65 main_v61 main_v66 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v66 main_v67 (broadcastInDim S50000x1 ![0] bcast_S50000_S50000x1_0 : (⟨S50000, .i32⟩ : BufTy).Contents (Elt F) → (⟨S50000x1, .i32⟩ : BufTy).Contents (Elt F)),
    StableHlo.nullary main_c_14 (constantI S_ 32 1#32),
    StableHlo.unary main_c_14 main_v68 (broadcastInDim S50000 ![] bcast_S_S50000 : (⟨S_, .i32⟩ : BufTy).Contents (Elt F) → (⟨S50000, .i32⟩ : BufTy).Contents (Elt F)),
    StableHlo.ternary main_v60 main_v67 main_v68 main_v69 ((fun x i u => Host.scatter scatter_S500_S50000x1_S50000_n_0_0_1 IntOp.addi x i u) : (⟨S500, .i32⟩ : BufTy).Contents (Elt F) → (⟨S50000x1, .i32⟩ : BufTy).Contents (Elt F) → (⟨S50000, .i32⟩ : BufTy).Contents (Elt F) → (⟨S500, .i32⟩ : BufTy).Contents (Elt F)),
    TRef.nullary main_call3.call0.c (constantI S_ 32 0#32),
    TRef.unary main_call3.call0.c main_call3.call0.v0 (broadcastInDim S_ ![] bcast_S_S_),
    TRef.binary (.of main_v69 : TRef sig ⟨S500, .i32⟩) main_call3.call0.v0 main_call3.call0.v1 (fun x v => Host.reduceWindow IntOp.addi ![500] ![1] ![499] ![0] x v reduceWindows_S500_S500_w500s1p499_0 h_S_),
    StableHlo.binary main_v70 main_v69 main_v71 (subi : (⟨S500, .i32⟩ : BufTy).Contents (Elt F) → (⟨S500, .i32⟩ : BufTy).Contents (Elt F) → (⟨S500, .i32⟩ : BufTy).Contents (Elt F)),
    StableHlo.binary main_v71 main_arg3 main_v72 (addi : (⟨S500, .i32⟩ : BufTy).Contents (Elt F) → (⟨S500, .i32⟩ : BufTy).Contents (Elt F) → (⟨S500, .i32⟩ : BufTy).Contents (Elt F)),
    StableHlo.nullary main_c_15 (constantI S_ 32 0#32),
    StableHlo.unary main_c_15 main_v73 (broadcastInDim S500 ![] bcast_S_S500 : (⟨S_, .i32⟩ : BufTy).Contents (Elt F) → (⟨S500, .i32⟩ : BufTy).Contents (Elt F)),
    StableHlo.binary main_v72 main_v73 main_v74 (cmpi .slt : (⟨S500, .i32⟩ : BufTy).Contents (Elt F) → (⟨S500, .i32⟩ : BufTy).Contents (Elt F) → (⟨S500, .i1⟩ : BufTy).Contents (Elt F)),
    StableHlo.nullary main_c_16 (constantI S_ 32 50000#32),
    StableHlo.unary main_c_16 main_v75 (broadcastInDim S500 ![] bcast_S_S500 : (⟨S_, .i32⟩ : BufTy).Contents (Elt F) → (⟨S500, .i32⟩ : BufTy).Contents (Elt F)),
    StableHlo.binary main_v72 main_v75 main_v76 (addi : (⟨S500, .i32⟩ : BufTy).Contents (Elt F) → (⟨S500, .i32⟩ : BufTy).Contents (Elt F) → (⟨S500, .i32⟩ : BufTy).Contents (Elt F)),
    StableHlo.ternary main_v74 main_v76 main_v72 main_v77 (select : (⟨S500, .i1⟩ : BufTy).Contents (Elt F) → (⟨S500, .i32⟩ : BufTy).Contents (Elt F) → (⟨S500, .i32⟩ : BufTy).Contents (Elt F) → (⟨S500, .i32⟩ : BufTy).Contents (Elt F)),
    StableHlo.unary main_v77 main_v78 (broadcastInDim S500x1 ![0] bcast_S500_S500x1_0 : (⟨S500, .i32⟩ : BufTy).Contents (Elt F) → (⟨S500x1, .i32⟩ : BufTy).Contents (Elt F)),
    StableHlo.binary main_v59 main_v78 main_v79 ((fun x i => Host.gather gather_S50000x64_S500x1_S500x64_1_0_n_n_0_1_164 x i) : (⟨S50000x64, .f32⟩ : BufTy).Contents (Elt F) → (⟨S500x1, .i32⟩ : BufTy).Contents (Elt F) → (⟨S500x64, .f32⟩ : BufTy).Contents (Elt F)),
    StableHlo.unary main_arg10 main_v80 ((transpose S64x1 [1, 0] · transposes_S1x64_S64x1_1_0) : (⟨S1x64, .f32⟩ : BufTy).Contents (Elt F) → (⟨S64x1, .f32⟩ : BufTy).Contents (Elt F)),
    StableHlo.binary main_v79 main_v80 main_v81 ((fun l r => Host.dotGeneral dot_S500x64_S64x1_S500x1_1_0_0_1_n_n none l r) : (⟨S500x64, .f32⟩ : BufTy).Contents (Elt F) → (⟨S64x1, .f32⟩ : BufTy).Contents (Elt F) → (⟨S500x1, .f32⟩ : BufTy).Contents (Elt F)),
    StableHlo.unary main_arg11 main_v82 (broadcastInDim S1x1 ![1] bcast_S1_S1x1_1 : (⟨S1, .f32⟩ : BufTy).Contents (Elt F) → (⟨S1x1, .f32⟩ : BufTy).Contents (Elt F)),
    StableHlo.unary main_v82 main_v83 (broadcastInDim S500x1 ![0, 1] bcast_S1x1_S500x1_0_1 : (⟨S1x1, .f32⟩ : BufTy).Contents (Elt F) → (⟨S500x1, .f32⟩ : BufTy).Contents (Elt F)),
    StableHlo.binary main_v81 main_v83 main_v84 (addf : (⟨S500x1, .f32⟩ : BufTy).Contents (Elt F) → (⟨S500x1, .f32⟩ : BufTy).Contents (Elt F) → (⟨S500x1, .f32⟩ : BufTy).Contents (Elt F)),
    StableHlo.reshape main_v84 main_v85 rfl shapeCasts_S500x1_S500 ]

set_option maxRecDepth 8192 in
set_option maxHeartbeats 4000000 in
/-- @main is that straight line: the two windows, the callees' bodies at their calls and the records at their fields
    unfolded, both sides are one chain of operation steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., unary_bufs_sub .., unary_bufs_sub .., binary_bufs_sub .., reshape_bufs_sub ..⟩

set_option maxRecDepth 8192 in
/-- Every operation determines its results. -/
theorem ops_fresh : (ops : List (HloOp τ sig (Elt F))).Forall fun op => op.fresh = ∅ :=
  ⟨rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl, rfl, rfl, rfl, rfl, rfl, rfl, rfl,
    rfl, rfl, rfl, rfl, rfl⟩

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The arguments are kept: no operation of the line writes an argument's buffer -/

/-- The buffers the line writes, one per operation, in program order. -/
abbrev written : List (Ref sig .tc) :=
  [ main_v0, main_v1, main_v2, main_v3, main_c, main_v4, main_v5, main_c_0, main_v6, main_v7, main_v8, main_v9,
    main_v10, main_cst, main_v11, main_v12, main_v13, main_cst_1, main_v14, main_cst_2, main_v15, main_v16, main_v17, main_cst_3,
    main_v18, main_v19, main_v20, main_v21, main_v22, main_v23, main_v24, main_v25, main_v26, main_v27, main_v28, main_v29,
    main_v30, main_call0_cst, main_call0_v0, main_v31, main_c_4, main_v32, main_v33, main_c_5, main_v34, main_v35, main_v36, main_v37,
    main_v38, main_cst_6, main_v39, main_v40, main_v41, main_cst_7, main_v42, main_cst_8, main_v43, main_v44, main_v45, main_cst_9,
    main_v46, main_v47, main_v48, main_v49, main_v50, main_v51, main_v52, main_v53, main_v54, main_v55, main_v56, main_v57,
    main_v58, main_call1_cst, main_call1_v0, main_v59, main_c_10, main_v60, main_c_11, main_call2_v0, main_call2_v1, main_v61, main_c_12, main_v62,
    main_v63, main_c_13, main_v64, main_v65, main_v66, main_v67, main_c_14, main_v68, main_v69, main_call3_call0_c, main_call3_call0_v0, main_v70,
    main_v71, main_v72, main_c_15, main_v73, main_v74, main_c_16, main_v75, main_v76, main_v77, main_v78, main_v79, main_v80,
    main_v81, main_v82, main_v83, main_v84, main_v85 ]

/-- A buffer of that list, as the one-element set an operation writes, lies in the list's set. -/
theorem mem_written {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map.mpr ⟨y, h, rfl⟩))

set_option maxRecDepth 8192 in
/-- Each operation writes only its own result buffer, a member of the list. -/
theorem ops_writes : (ops : List (HloOp τ sig (Elt F))).Forall fun op => op.writes ⊆ (written.map (Proc.devRef (τ := τ) .tc)).toFinset :=
  ⟨mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide), mem_written (by decide), mem_written (by decide), mem_written (by decide),
    mem_written (by decide)⟩

theorem kept_arg0 (V : Valuation τ sig (Elt F)) : after ops V (main_arg0 : DevRef τ sig) = V (main_arg0 : DevRef τ sig) :=
  after_of_writes_sub ops V ops_writes (by decide)

theorem kept_arg1 (V : Valuation τ sig (Elt F)) : after ops V (main_arg1 : DevRef τ sig) = V (main_arg1 : DevRef τ sig) :=
  after_of_writes_sub ops V ops_writes (by decide)

theorem kept_arg2 (V : Valuation τ sig (Elt F)) : after ops V (main_arg2 : DevRef τ sig) = V (main_arg2 : DevRef τ sig) :=
  after_of_writes_sub ops V ops_writes (by decide)

theorem kept_arg3 (V : Valuation τ sig (Elt F)) : after ops V (main_arg3 : DevRef τ sig) = V (main_arg3 : DevRef τ sig) :=
  after_of_writes_sub ops V ops_writes (by decide)

theorem kept_arg4 (V : Valuation τ sig (Elt F)) : after ops V (main_arg4 : DevRef τ sig) = V (main_arg4 : DevRef τ sig) :=
  after_of_writes_sub ops V ops_writes (by decide)

theorem kept_arg5 (V : Valuation τ sig (Elt F)) : after ops V (main_arg5 : DevRef τ sig) = V (main_arg5 : DevRef τ sig) :=
  after_of_writes_sub ops V ops_writes (by decide)

theorem kept_arg6 (V : Valuation τ sig (Elt F)) : after ops V (main_arg6 : DevRef τ sig) = V (main_arg6 : DevRef τ sig) :=
  after_of_writes_sub ops V ops_writes (by decide)

theorem kept_arg7 (V : Valuation τ sig (Elt F)) : after ops V (main_arg7 : DevRef τ sig) = V (main_arg7 : DevRef τ sig) :=
  after_of_writes_sub ops V ops_writes (by decide)

theorem kept_arg8 (V : Valuation τ sig (Elt F)) : after ops V (main_arg8 : DevRef τ sig) = V (main_arg8 : DevRef τ sig) :=
  after_of_writes_sub ops V ops_writes (by decide)

theorem kept_arg9 (V : Valuation τ sig (Elt F)) : after ops V (main_arg9 : DevRef τ sig) = V (main_arg9 : DevRef τ sig) :=
  after_of_writes_sub ops V ops_writes (by decide)

theorem kept_arg10 (V : Valuation τ sig (Elt F)) : after ops V (main_arg10 : DevRef τ sig) = V (main_arg10 : DevRef τ sig) :=
  after_of_writes_sub ops V ops_writes (by decide)

theorem kept_arg11 (V : Valuation τ sig (Elt F)) : after ops V (main_arg11 : DevRef τ sig) = V (main_arg11 : DevRef τ sig) :=
  after_of_writes_sub ops V ops_writes (by decide)

end Cert.ReferenceIdeal.RefRun

end
-- ==== Proof.RefLayer.lean ====
/-
  One layer of the reference, as its host operations compute it, read entry by entry.

  The reference divides the neighbour sums by max(deg, 1) (the degree vector broadcast down the rows), contracts the
  quotient and the features with the transposed weight matrices, adds the two products and the bias row, and clamps
  below at zero. Read at entry (n, j) each product is a sum over the contracted axis, a transposed matrix at (k, j) is
  the matrix at (j, k), a broadcast vector is the vector at its own coordinate, and the word of 1.0 denotes 1: the entry
  is relu(Σₖ (agg(n,k) / max(deg(n), 1)) · Wl(j,k) + Σₖ x(n,k) · Wr(j,k) + b(j)).
-/
import proofs.«138282_j28020366639688_1_alg».proof.Proof.Gen.ReferenceIdeal
import proofs.«138282_j28020366639688_1_alg».proof.Proof.Spec
import proofs.«138282_j28020366639688_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

noncomputable section

open scoped BigOperators

namespace Cert.Sage.RefLayer

open Idealize.ShloMosaic Idealize.ShloMosaic.ValueIdx Cert.ReferenceIdeal
open Cert.ReferenceIdeal.Facts₀ Cert.ReferenceIdeal.Facts

variable {F : FTy → Type} [FloatOps F]

/-- The first layer (128 input features) as the reference's host operations. -/
def refLayer128 (agg : (⟨S50000x128, .f32⟩ : BufTy).Contents (Elt F)) (deg : (⟨S50000, .f32⟩ : BufTy).Contents (Elt F))
    (x : (⟨S50000x128, .f32⟩ : BufTy).Contents (Elt F)) (Wl Wr : (⟨S64x128, .f32⟩ : BufTy).Contents (Elt F))
    (b : (⟨S64, .f32⟩ : BufTy).Contents (Elt F)) : (⟨S50000x64, .f32⟩ : BufTy).Contents (Elt F) :=
  maximumf
    (addf
      (addf
        (Host.dotGeneral dot_S50000x128_S128x64_S50000x64_1_0_0_1_n_n none
          (Host.divf agg
            (broadcastInDim S50000x128 ![0, 1] bcast_S50000x1_S50000x128_0_1
              (broadcastInDim S50000x1 ![0] bcast_S50000_S50000x1_0
                (maximumf deg (broadcastInDim S50000 ![] bcast_S_S50000 (constant S_ .f32 0x3F800000#32))))))
          (transpose S128x64 [1, 0] Wl transposes_S64x128_S128x64_1_0))
        (Host.dotGeneral dot_S50000x128_S128x64_S50000x64_1_0_0_1_n_n none x
          (transpose S128x64 [1, 0] Wr transposes_S64x128_S128x64_1_0)))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The second layer (64 input features) as the reference's host operations. -/
def refLayer64 (agg : (⟨S50000x64, .f32⟩ : BufTy).Contents (Elt F)) (deg : (⟨S50000, .f32⟩ : BufTy).Contents (Elt F))
    (x : (⟨S50000x64, .f32⟩ : BufTy).Contents (Elt F)) (Wl Wr : (⟨S64x64, .f32⟩ : BufTy).Contents (Elt F))
    (b : (⟨S64, .f32⟩ : BufTy).Contents (Elt F)) : (⟨S50000x64, .f32⟩ : BufTy).Contents (Elt F) :=
  maximumf
    (addf
      (addf
        (Host.dotGeneral dot_S50000x64_S64x64_S50000x64_1_0_0_1_n_n none
          (Host.divf agg
            (broadcastInDim S50000x64 ![0, 1] bcast_S50000x1_S50000x64_0_1
              (broadcastInDim S50000x1 ![0] bcast_S50000_S50000x1_0
                (maximumf deg (broadcastInDim S50000 ![] bcast_S_S50000 (constant S_ .f32 0x3F800000#32))))))
          (transpose S64x64 [1, 0] Wl transposes_S64x64_S64x64_1_0))
        (Host.dotGeneral dot_S50000x64_S64x64_S50000x64_1_0_0_1_n_n none x
          (transpose S64x64 [1, 0] Wr transposes_S64x64_S64x64_1_0)))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-! ## Broadcasts read at coordinates, generic in the extents -/

section Broadcasts
variable {α : Type}

/-- A scalar splat reads the scalar at every index. -/
theorem splat_apply {t : Shape} (h : S_.BroadcastsInDim t (![] : Fin 0 → Fin t.rank)) (x : S_.Idx → α) (j : t.Idx) :
    broadcastInDim t ![] h x j = x ix0 :=
  broadcastInDim_apply _ h x j ix0 fun a => a.elim0

/-- A vector [a] laid down the column [a, 1] reads, at (p, u), the vector at p. -/
theorem vec_col_apply {a : ℕ} (h : (⟨1, ![a]⟩ : Shape).BroadcastsInDim ⟨2, ![a, 1]⟩ (![0] : Fin 1 → Fin 2))
    (v : (⟨1, ![a]⟩ : Shape).Idx → α) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column [a, 1] stretched across [a, b] reads, at (p, c), the column at p. -/
theorem col_mat_apply {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] laid along the row [1, b] reads, at (u, c), the vector at c. -/
theorem vec_row_apply {b : ℕ} (h : (⟨1, ![b]⟩ : Shape).BroadcastsInDim ⟨2, ![1, b]⟩ (![1] : Fin 1 → Fin 2))
    (v : (⟨1, ![b]⟩ : Shape).Idx → α) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row [1, b] stretched down [a, b] reads, at (p, c), the row at c. -/
theorem row_mat_apply {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Broadcasts

/-! ## The pieces of a layer read at an entry, generic in the extents -/

section Pieces
variable {N C H : ℕ}

/-- max(deg, 1) laid down a column and stretched across the rows reads, at (n, k), max(deg(n), 1): the splat of the
    word of 1.0 is 1 everywhere, and the two broadcasts keep the row coordinate. -/
theorem clamp_apply (h1 : S_.BroadcastsInDim ⟨1, ![N]⟩ (![] : Fin 0 → Fin 1))
    (h2 : (⟨1, ![N]⟩ : Shape).BroadcastsInDim ⟨2, ![N, 1]⟩ (![0] : Fin 1 → Fin 2))
    (h3 : (⟨2, ![N, 1]⟩ : Shape).BroadcastsInDim ⟨2, ![N, C]⟩ (![0, 1] : Fin 2 → Fin 2))
    (deg : FVec Ideal ⟨1, ![N]⟩ .f32) (n : Fin N) (k : Fin C) :
    broadcastInDim ⟨2, ![N, C]⟩ ![0, 1] h3 (broadcastInDim ⟨2, ![N, 1]⟩ ![0] h2
      (maximumf deg (broadcastInDim ⟨1, ![N]⟩ ![] h1 (constant (F := Ideal) S_ .f32 0x3F800000#32)))) (ix2 n k)
      = max (deg (ix1 n)) 1 := by
  rw [col_mat_apply, vec_col_apply, maximumf_apply, splat_apply, constant_apply, Cert.LibKeepdims.ofBits_one_f32]

/-- The neighbour sums divided by the clamped degree read, at (n, k), agg(n, k) / max(deg(n), 1). -/
theorem quotient_apply (h1 : S_.BroadcastsInDim ⟨1, ![N]⟩ (![] : Fin 0 → Fin 1))
    (h2 : (⟨1, ![N]⟩ : Shape).BroadcastsInDim ⟨2, ![N, 1]⟩ (![0] : Fin 1 → Fin 2))
    (h3 : (⟨2, ![N, 1]⟩ : Shape).BroadcastsInDim ⟨2, ![N, C]⟩ (![0, 1] : Fin 2 → Fin 2))
    (agg : FVec Ideal ⟨2, ![N, C]⟩ .f32) (deg : FVec Ideal ⟨1, ![N]⟩ .f32) (n : Fin N) (k : Fin C) :
    Host.divf agg (broadcastInDim ⟨2, ![N, C]⟩ ![0, 1] h3 (broadcastInDim ⟨2, ![N, 1]⟩ ![0] h2
      (maximumf deg (broadcastInDim ⟨1, ![N]⟩ ![] h1 (constant (F := Ideal) S_ .f32 0x3F800000#32))))) (ix2 n k)
      = Ideal.div (agg (ix2 n k)) (max (deg (ix1 n)) 1) :=
  congrArg (Ideal.div (agg (ix2 n k))) (clamp_apply h1 h2 h3 deg n k)

/-- A product of an [N, C] by a [C, H] matrix contracted on the shared axis reads, at (n, j), Σₖ A(n, k) · B(k, j). -/
theorem dot_apply (w : DotDims.WF ⟨2, ![N, C]⟩ ⟨2, ![C, H]⟩ ⟨2, ![N, H]⟩ [1] [0] [0] [1] [] [])
    (A : FVec Ideal ⟨2, ![N, C]⟩ .f32) (B : FVec Ideal ⟨2, ![C, H]⟩ .f32) (n : Fin N) (j : Fin H) :
    Host.dotGeneral (⟨[1], [0], [0], [1], [], [], w⟩ : DotDims _ _ _) none A B (ix2 n j)
      = ∑ k : Fin C, A (ix2 n k) * B (ix2 k j) :=
  StackMember.dotGeneral_plain_apply none A B n j

/-- The same product against a transposed [H, C] matrix reads, at (n, j), Σₖ A(n, k) · W(j, k): the transposed matrix
    at (k, j) is the matrix at (j, k). -/
theorem dot_transposed_apply (w : DotDims.WF ⟨2, ![N, C]⟩ ⟨2, ![C, H]⟩ ⟨2, ![N, H]⟩ [1] [0] [0] [1] [] [])
    (ht : (⟨2, ![H, C]⟩ : Shape).Transposes [1, 0] ⟨2, ![C, H]⟩)
    (A : FVec Ideal ⟨2, ![N, C]⟩ .f32) (W : FVec Ideal ⟨2, ![H, C]⟩ .f32) (n : Fin N) (j : Fin H) :
    Host.dotGeneral (⟨[1], [0], [0], [1], [], [], w⟩ : DotDims _ _ _) none A (transpose ⟨2, ![C, H]⟩ [1, 0] W ht) (ix2 n j)
      = ∑ k : Fin C, A (ix2 n k) * W (ix2 j k) :=
  (dot_apply w A _ n j).trans
    (Finset.sum_congr rfl fun k _ => congrArg (A (ix2 n k) * ·) (transpose_ix2_apply W ht k j))

/-- The bias vector laid along a row and stretched down the rows reads, at (n, j), b(j). -/
theorem bias_apply (h4 : (⟨1, ![H]⟩ : Shape).BroadcastsInDim ⟨2, ![1, H]⟩ (![1] : Fin 1 → Fin 2))
    (h5 : (⟨2, ![1, H]⟩ : Shape).BroadcastsInDim ⟨2, ![N, H]⟩ (![0, 1] : Fin 2 → Fin 2))
    (b : (⟨1, ![H]⟩ : Shape).Idx → EReal) (n : Fin N) (j : Fin H) :
    broadcastInDim ⟨2, ![N, H]⟩ ![0, 1] h5 (broadcastInDim ⟨2, ![1, H]⟩ ![1] h4 b) (ix2 n j) = b (ix1 j) := by
  rw [row_mat_apply, vec_row_apply]

/-- The splat of the zero word reads 0 at every index. -/
theorem zero_apply {t : Shape} (h6 : S_.BroadcastsInDim t (![] : Fin 0 → Fin t.rank)) (i : t.Idx) :
    broadcastInDim t ![] h6 (constant (F := Ideal) S_ .f32 0x00000000#32) i = (0 : EReal) := by
  rw [splat_apply, constant_apply, Ideal.ofBits_zero_f32]

/-- One layer's host operations at entry (n, j): the two products are sums over the contracted axis, the transposed
    weights at (k, j) are the weights at (j, k), the quotient at (n, k) is agg(n, k) / max(deg(n), 1), the bias row is
    b(j) and the clamp is against 0. -/
theorem layer_apply (w : DotDims.WF ⟨2, ![N, C]⟩ ⟨2, ![C, H]⟩ ⟨2, ![N, H]⟩ [1] [0] [0] [1] [] [])
    (h1 : S_.BroadcastsInDim ⟨1, ![N]⟩ (![] : Fin 0 → Fin 1))
    (h2 : (⟨1, ![N]⟩ : Shape).BroadcastsInDim ⟨2, ![N, 1]⟩ (![0] : Fin 1 → Fin 2))
    (h3 : (⟨2, ![N, 1]⟩ : Shape).BroadcastsInDim ⟨2, ![N, C]⟩ (![0, 1] : Fin 2 → Fin 2))
    (ht : (⟨2, ![H, C]⟩ : Shape).Transposes [1, 0] ⟨2, ![C, H]⟩)
    (h4 : (⟨1, ![H]⟩ : Shape).BroadcastsInDim ⟨2, ![1, H]⟩ (![1] : Fin 1 → Fin 2))
    (h5 : (⟨2, ![1, H]⟩ : Shape).BroadcastsInDim ⟨2, ![N, H]⟩ (![0, 1] : Fin 2 → Fin 2))
    (h6 : S_.BroadcastsInDim ⟨2, ![N, H]⟩ (![] : Fin 0 → Fin 2))
    (agg : FVec Ideal ⟨2, ![N, C]⟩ .f32) (deg : FVec Ideal ⟨1, ![N]⟩ .f32) (x : FVec Ideal ⟨2, ![N, C]⟩ .f32)
    (Wl Wr : FVec Ideal ⟨2, ![H, C]⟩ .f32) (b : FVec Ideal ⟨1, ![H]⟩ .f32) (n : Fin N) (j : Fin H) :
    maximumf
      (addf
        (addf
          (Host.dotGeneral (⟨[1], [0], [0], [1], [], [], w⟩ : DotDims _ _ _) none
            (Host.divf agg (broadcastInDim ⟨2, ![N, C]⟩ ![0, 1] h3 (broadcastInDim ⟨2, ![N, 1]⟩ ![0] h2
              (maximumf deg (broadcastInDim ⟨1, ![N]⟩ ![] h1 (constant (F := Ideal) S_ .f32 0x3F800000#32))))))
            (transpose ⟨2, ![C, H]⟩ [1, 0] Wl ht))
          (Host.dotGeneral (⟨[1], [0], [0], [1], [], [], w⟩ : DotDims _ _ _) none x (transpose ⟨2, ![C, H]⟩ [1, 0] Wr ht)))
        (broadcastInDim ⟨2, ![N, H]⟩ ![0, 1] h5 (broadcastInDim ⟨2, ![1, H]⟩ ![1] h4 b)))
      (broadcastInDim ⟨2, ![N, H]⟩ ![] h6 (constant (F := Ideal) S_ .f32 0x00000000#32)) (ix2 n j)
      = Cert.Sage.layerSpecAt agg deg x Wl Wr b n j := by
  unfold Cert.Sage.layerSpecAt
  rw [maximumf_apply, addf_apply, addf_apply, dot_transposed_apply, dot_transposed_apply, bias_apply, zero_apply,
    Finset.sum_congr rfl fun k _ => congrArg (· * Wl (ix2 j k)) (quotient_apply h1 h2 h3 agg deg n k)]

end Pieces

/-- The first layer's host operations compute the layer's reference form. -/
theorem refLayer128_eq (agg : (⟨S50000x128, .f32⟩ : BufTy).Contents (Elt Ideal)) (deg : (⟨S50000, .f32⟩ : BufTy).Contents (Elt Ideal))
    (x : (⟨S50000x128, .f32⟩ : BufTy).Contents (Elt Ideal)) (Wl Wr : (⟨S64x128, .f32⟩ : BufTy).Contents (Elt Ideal))
    (b : (⟨S64, .f32⟩ : BufTy).Contents (Elt Ideal)) :
    refLayer128 (F := Ideal) agg deg x Wl Wr b = Cert.Sage.layerSpec (N := 50000) (C := 128) (H := 64) agg deg x Wl Wr b := by
  funext i
  obtain ⟨n, j, rfl⟩ : ∃ (n : Fin 50000) (j : Fin 64), i = ix2 n j := ⟨i 0, i 1, eq_ix2 i⟩
  rw [Cert.Sage.layerSpec_apply]
  exact layer_apply dot_S50000x128_S128x64_S50000x64_1_0_0_1_n_n_wf bcast_S_S50000 bcast_S50000_S50000x1_0
    bcast_S50000x1_S50000x128_0_1 transposes_S64x128_S128x64_1_0 bcast_S64_S1x64_1 bcast_S1x64_S50000x64_0_1
    bcast_S_S50000x64 agg deg x Wl Wr b n j

/-- The second layer's host operations compute the layer's reference form. -/
theorem refLayer64_eq (agg : (⟨S50000x64, .f32⟩ : BufTy).Contents (Elt Ideal)) (deg : (⟨S50000, .f32⟩ : BufTy).Contents (Elt Ideal))
    (x : (⟨S50000x64, .f32⟩ : BufTy).Contents (Elt Ideal)) (Wl Wr : (⟨S64x64, .f32⟩ : BufTy).Contents (Elt Ideal))
    (b : (⟨S64, .f32⟩ : BufTy).Contents (Elt Ideal)) :
    refLayer64 (F := Ideal) agg deg x Wl Wr b = Cert.Sage.layerSpec (N := 50000) (C := 64) (H := 64) agg deg x Wl Wr b := by
  funext i
  obtain ⟨n, j, rfl⟩ : ∃ (n : Fin 50000) (j : Fin 64), i = ix2 n j := ⟨i 0, i 1, eq_ix2 i⟩
  rw [Cert.Sage.layerSpec_apply]
  exact layer_apply dot_S50000x64_S64x64_S50000x64_1_0_0_1_n_n_wf bcast_S_S50000 bcast_S50000_S50000x1_0
    bcast_S50000x1_S50000x64_0_1 transposes_S64x64_S64x64_1_0 bcast_S64_S1x64_1 bcast_S1x64_S50000x64_0_1
    bcast_S_S50000x64 agg deg x Wl Wr b n j

end Cert.Sage.RefLayer

end
-- ==== Proof.RefVal.lean ====
/-
  What the reference's result buffer holds after its run, as one named term of the twelve argument arrays.

  The run is a fold of the operations' results over the launch contents. Read at the result buffer, the fold walks back
  through the line: the read-out column reshaped to a vector, the column the centre rows of the second layer contracted
  with the output weights plus the output bias, the second layer the clamp of its two products and bias over the
  neighbour sums of the first layer's output, and so on down to the arguments. The reference computes the in-degrees
  twice and wraps the source indices twice; both copies are the same term of the edge list, so one name serves each.
  A callee's operations move contents to a buffer's own type and back, which is the identity at these buffers, and the
  clip's conversion of its bound is the identity.
-/
import proofs.«138282_j28020366639688_1_alg».proof.Proof.RefRun
import proofs.«138282_j28020366639688_1_alg».proof.Proof.RefDefs
import proofs.«138282_j28020366639688_1_alg».proof.Proof.RefLayer

noncomputable section

namespace Cert.Sage.RefVal

open Idealize.ShloMosaic Idealize.ShloMosaic.TcCoe Idealize.ShloMosaic.StableHlo Cert.ReferenceIdeal
open Cert.ReferenceIdeal.Facts₀ Cert.ReferenceIdeal.Facts

/-- The reference's result as one term of the twelve argument arrays: the read-out of the second layer over the
    neighbour sums of the first layer's output, both layers normalised by the same in-degrees. -/
def refOut (X : (⟨S50000x128, .f32⟩ : BufTy).Contents (Elt Ideal)) (E : (⟨S2x800000, .i32⟩ : BufTy).Contents (Elt Ideal)) (B : (⟨S50000, .i32⟩ : BufTy).Contents (Elt Ideal)) (P : (⟨S500, .i32⟩ : BufTy).Contents (Elt Ideal))
    (Wl1 Wr1 : (⟨S64x128, .f32⟩ : BufTy).Contents (Elt Ideal)) (b1 : (⟨S64, .f32⟩ : BufTy).Contents (Elt Ideal)) (Wl2 Wr2 : (⟨S64x64, .f32⟩ : BufTy).Contents (Elt Ideal)) (b2 : (⟨S64, .f32⟩ : BufTy).Contents (Elt Ideal))
    (Wout : (⟨S1x64, .f32⟩ : BufTy).Contents (Elt Ideal)) (bout : (⟨S1, .f32⟩ : BufTy).Contents (Elt Ideal)) : (⟨S500, .f32⟩ : BufTy).Contents (Elt Ideal) :=
  Cert.Sage.RefDefs.tail
    (Cert.Sage.RefLayer.refLayer64
      (Cert.Sage.RefDefs.agg64 (Cert.Sage.RefLayer.refLayer128 (Cert.Sage.RefDefs.agg128 X E) (Cert.Sage.RefDefs.deg E) X Wl1 Wr1 b1) E)
      (Cert.Sage.RefDefs.deg E)
      (Cert.Sage.RefLayer.refLayer128 (Cert.Sage.RefDefs.agg128 X E) (Cert.Sage.RefDefs.deg E) X Wl1 Wr1 b1) Wl2 Wr2 b2)
    B P Wout bout

/-! ## Contents at a buffer's own type -/

variable {Val : EltTy → Type}

/-- Contents moved to a buffer's own type and back are the contents. -/
theorem ofBuf_toBuf {T : BufTy} (x : TRef sig T) (v : T.Contents Val) : x.ofBuf (x.toBuf v) = v := by
  simp only [TRef.ofBuf, TRef.toBuf, cast_cast, cast_eq]

/-- At each of these buffers the buffer's type is the value's, so moving contents to it or back changes nothing. -/
theorem ofBuf_arg2 (h1 h2 h3) (v : main_arg2.ty.Contents Val) : (TRef.of (T := ⟨S50000, .i32⟩) main_arg2 h1 h2 h3).ofBuf v = v := rfl
theorem ofBuf_c_11 (h1 h2 h3) (v : main_c_11.ty.Contents Val) : (TRef.of (T := ⟨S_, .i32⟩) main_c_11 h1 h2 h3).ofBuf v = v := rfl
theorem ofBuf_v30 (h1 h2 h3) (v : main_v30.ty.Contents Val) : (TRef.of (T := ⟨S50000x64, .f32⟩) main_v30 h1 h2 h3).ofBuf v = v := rfl
theorem ofBuf_v58 (h1 h2 h3) (v : main_v58.ty.Contents Val) : (TRef.of (T := ⟨S50000x64, .f32⟩) main_v58 h1 h2 h3).ofBuf v = v := rfl
theorem ofBuf_v69 (h1 h2 h3) (v : main_v69.ty.Contents Val) : (TRef.of (T := ⟨S500, .i32⟩) main_v69 h1 h2 h3).ofBuf v = v := rfl
theorem toBuf_v31 (h1 h2 h3) (v : (⟨S50000x64, .f32⟩ : BufTy).Contents Val) : (TRef.of (T := ⟨S50000x64, .f32⟩) main_v31 h1 h2 h3).toBuf v = v := rfl
theorem toBuf_v59 (h1 h2 h3) (v : (⟨S50000x64, .f32⟩ : BufTy).Contents Val) : (TRef.of (T := ⟨S50000x64, .f32⟩) main_v59 h1 h2 h3).toBuf v = v := rfl
theorem toBuf_v61 (h1 h2 h3) (v : (⟨S50000, .i32⟩ : BufTy).Contents Val) : (TRef.of (T := ⟨S50000, .i32⟩) main_v61 h1 h2 h3).toBuf v = v := rfl
theorem toBuf_v70 (h1 h2 h3) (v : (⟨S500, .i32⟩ : BufTy).Contents Val) : (TRef.of (T := ⟨S500, .i32⟩) main_v70 h1 h2 h3).toBuf v = v := rfl

/-! ## The three reshapes, read at their own result buffers -/

/-- The row of edge sources, reshaped to a vector, at the reshape's own result buffer. -/
theorem reshape_v1 (hx hy) (W : Valuation τ sig Val) :
    (reshape (τ := τ) (Val := Val) main_v0 main_v1 rfl shapeCasts_S1x800000_S800000 hx hy).result W (no_index (Proc.devRef .tc main_v1))
      = shapeCast S800000 (W (Proc.devRef .tc main_v0)) shapeCasts_S1x800000_S800000 :=
  (reshape_result main_v0 main_v1 rfl shapeCasts_S1x800000_S800000 hx hy W).trans rfl

/-- The row of edge destinations, reshaped to a vector. -/
theorem reshape_v3 (hx hy) (W : Valuation τ sig Val) :
    (reshape (τ := τ) (Val := Val) main_v2 main_v3 rfl shapeCasts_S1x800000_S800000 hx hy).result W (no_index (Proc.devRef .tc main_v3))
      = shapeCast S800000 (W (Proc.devRef .tc main_v2)) shapeCasts_S1x800000_S800000 :=
  (reshape_result main_v2 main_v3 rfl shapeCasts_S1x800000_S800000 hx hy W).trans rfl

/-- The read-out column, reshaped to a vector. -/
theorem reshape_v85 (hx hy) (W : Valuation τ sig Val) :
    (reshape (τ := τ) (Val := Val) main_v84 main_v85 rfl shapeCasts_S500x1_S500 hx hy).result W (no_index (Proc.devRef .tc main_v85))
      = shapeCast S500 (W (Proc.devRef .tc main_v84)) shapeCasts_S500x1_S500 :=
  (reshape_result main_v84 main_v85 rfl shapeCasts_S500x1_S500 hx hy W).trans rfl

/-! ## The result buffer after the run -/

set_option maxRecDepth 8192 in
set_option maxHeartbeats 2000000 in
/-- The fold at the result buffer is the named term: each operation's result at its own buffer is its function of the
    operands' contents, any other buffer keeps what it held; with the moves between a buffer's type and the value's
    removed and the named pieces spelt out, the two sides are one term. -/
theorem out_eq (V : Valuation τ sig (Elt Ideal)) :
    after (Cert.ReferenceIdeal.RefRun.ops (F := Ideal)) V (main_v85 : DevRef τ sig)
      = refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  simp (disch := decide) only [after_cons, after_nil, nullary_result', unary_result', binary_result', ternary_result',
    reshape_v1, reshape_v3, reshape_v85,
    nullary_result_ne', unary_result_ne', binary_result_ne', ternary_result_ne', reshape_result_ne']
  simp only [ofBuf_toBuf, ofBuf_arg2, ofBuf_c_11, ofBuf_v30, ofBuf_v58, ofBuf_v69, toBuf_v31, toBuf_v59, toBuf_v61, toBuf_v70, id_eq]
  delta refOut RefDefs.tail RefLayer.refLayer64 RefLayer.refLayer128 RefDefs.agg64 RefDefs.agg128 RefDefs.deg RefDefs.centerCol
    RefDefs.centerPos RefDefs.countsSum RefDefs.counts RefDefs.batchIdx RefDefs.srcCol RefDefs.dstCol RefDefs.srcRow RefDefs.dstRow
  with_reducible rfl

end Cert.Sage.RefVal

end
-- ==== Proof.lean ====
/-
  The certificate of a two-layer graph network over 50000 nodes and 800000 edges: each layer is
  relu((neighbour sums / max(in-degree, 1)) · Wlᵀ + features · Wrᵀ + bias), and the result reads the second layer at one
  centre node per graph and contracts it with an output weight row.

  The kernel program computes the gathers and scatter-adds on the host exactly as the reference does and runs each
  layer's dense part in a pallas_call tiled over blocks of 5000 nodes, handed the reciprocal column 1 / max(deg, 1) and
  the weights transposed; the reference divides by max(deg, 1) and contracts against the untransposed weights. On the
  extended reals the two layers are one function (max(deg, 1) is never zero, so the quotient is the product with the
  inverse), the block products are the rows of the whole product, and every other operation is shared.
  The word-level kernel and its idealization run without fault by their generated frames; the reference's run is its
  operations in a line; the idealization rewrote nothing.
-/
import proofs.«138282_j28020366639688_1_alg».proof.Defs
import proofs.«138282_j28020366639688_1_alg».proof.Proof.Gen.Kernel
import proofs.«138282_j28020366639688_1_alg».proof.Proof.Gen.Kernel.Skeleton
import proofs.«138282_j28020366639688_1_alg».proof.Proof.Gen.Kernel.Launch
import proofs.«138282_j28020366639688_1_alg».proof.Proof.Gen.Kernel.Points
import proofs.«138282_j28020366639688_1_alg».proof.Proof.Gen.Kernel.Frame
import proofs.«138282_j28020366639688_1_alg».proof.Proof.Gen.KernelIdeal
import proofs.«138282_j28020366639688_1_alg».proof.Proof.Gen.KernelIdeal.Skeleton
import proofs.«138282_j28020366639688_1_alg».proof.Proof.Gen.KernelIdeal.Launch
import proofs.«138282_j28020366639688_1_alg».proof.Proof.Gen.KernelIdeal.Points
import proofs.«138282_j28020366639688_1_alg».proof.Proof.Gen.KernelIdeal.Frame
import proofs.«138282_j28020366639688_1_alg».proof.Proof.Gen.ReferenceIdeal
import proofs.«138282_j28020366639688_1_alg».proof.Proof.Gen.Pre_finite_inputs
import proofs.«138282_j28020366639688_1_alg».proof.Proof.KernelRun
import proofs.«138282_j28020366639688_1_alg».proof.Proof.KChain
import proofs.«138282_j28020366639688_1_alg».proof.Proof.Region0
import proofs.«138282_j28020366639688_1_alg».proof.Proof.Region1
import proofs.«138282_j28020366639688_1_alg».proof.Proof.RefRun
import proofs.«138282_j28020366639688_1_alg».proof.Proof.RefLayer
import proofs.«138282_j28020366639688_1_alg».proof.Proof.RefVal
import Idealize.ShloMosaic.Adequacy
import Idealize.ShloMosaic.Init

noncomputable section

namespace Cert.Proof

open Idealize.ShloMosaic Idealize.ShloMosaic.TcCoe Idealize.SL.Sem

/-- The word-level kernel program runs without fault and keeps its arguments. -/
theorem frame_kernel : Cert.frame_Kernel := fun m ρ _ => Cert.Kernel.Gen.frame m ρ

/-- The idealized kernel program runs without fault and keeps its arguments. -/
theorem frame_kernelIdeal : Cert.frame_KernelIdeal := fun m ρ _ => Cert.KernelIdeal.Gen.frame m ρ

/-- The reference runs without fault and keeps its arguments: no operation of its line writes one. -/
theorem frame_reference : Cert.frame_ReferenceIdeal := fun m ρ _ =>
  (θ_run Cert.ReferenceIdeal.defs _ _).mono (fun _ h c =>
    ⟨(h c _).trans (Cert.ReferenceIdeal.RefRun.kept_arg0 _),
     (h c _).trans (Cert.ReferenceIdeal.RefRun.kept_arg1 _),
     (h c _).trans (Cert.ReferenceIdeal.RefRun.kept_arg2 _),
     (h c _).trans (Cert.ReferenceIdeal.RefRun.kept_arg3 _),
     (h c _).trans (Cert.ReferenceIdeal.RefRun.kept_arg4 _),
     (h c _).trans (Cert.ReferenceIdeal.RefRun.kept_arg5 _),
     (h c _).trans (Cert.ReferenceIdeal.RefRun.kept_arg6 _),
     (h c _).trans (Cert.ReferenceIdeal.RefRun.kept_arg7 _),
     (h c _).trans (Cert.ReferenceIdeal.RefRun.kept_arg8 _),
     (h c _).trans (Cert.ReferenceIdeal.RefRun.kept_arg9 _),
     (h c _).trans (Cert.ReferenceIdeal.RefRun.kept_arg10 _),
     (h c _).trans (Cert.ReferenceIdeal.RefRun.kept_arg11 _)⟩)
    (Cert.ReferenceIdeal.RefRun.run_main (F := Ideal) m ρ)

/-- From memories that agree on the arguments both programs end with the read-out of the second layer at the centre
    rows: the kernel program by its run traced through its two calls, the reference by its line of operations with
    each layer read entry by entry. -/
theorem algebraic : Cert.algebraic_KernelIdeal_ReferenceIdeal := by
  intro m ρ m' ρ' _ hagree
  refine ⟨fun c => Cert.Sage.RefDefs.tail (Cert.Sage.KChain.H2 m c) (Cert.Sage.KChain.aB m c) (Cert.Sage.KChain.aP m c)
    (Cert.Sage.KChain.aWout m c) (Cert.Sage.KChain.about m c), ?_, ?_⟩
  · exact (θ_run Cert.KernelIdeal.defs _ _).mono
      (fun r h c => ⟨(h c).1.trans (Cert.Sage.KChain.kernel_out m ρ c Cert.Sage.Region0.arr Cert.Sage.Region1.arr), (h c).2⟩)
      (Cert.KernelIdeal.ValRun.run (F := Ideal) m ρ)
  · refine (θ_run Cert.ReferenceIdeal.defs _ _).mono (fun r h c =>
      ⟨?_, (h c _).trans (Cert.ReferenceIdeal.RefRun.kept_arg0 _),
       (h c _).trans (Cert.ReferenceIdeal.RefRun.kept_arg1 _),
       (h c _).trans (Cert.ReferenceIdeal.RefRun.kept_arg2 _),
       (h c _).trans (Cert.ReferenceIdeal.RefRun.kept_arg3 _),
       (h c _).trans (Cert.ReferenceIdeal.RefRun.kept_arg4 _),
       (h c _).trans (Cert.ReferenceIdeal.RefRun.kept_arg5 _),
       (h c _).trans (Cert.ReferenceIdeal.RefRun.kept_arg6 _),
       (h c _).trans (Cert.ReferenceIdeal.RefRun.kept_arg7 _),
       (h c _).trans (Cert.ReferenceIdeal.RefRun.kept_arg8 _),
       (h c _).trans (Cert.ReferenceIdeal.RefRun.kept_arg9 _),
       (h c _).trans (Cert.ReferenceIdeal.RefRun.kept_arg10 _),
       (h c _).trans (Cert.ReferenceIdeal.RefRun.kept_arg11 _)⟩)
      (Cert.ReferenceIdeal.RefRun.run_main (F := Ideal) m' ρ')
    refine (h c _).trans ((Cert.Sage.RefVal.out_eq _).trans ?_)
    obtain ⟨e0, e1, e2, e3, e4, e5, e6, e7, e8, e9, e10, e11⟩ := hagree c
    have a0 : StableHlo.launchContents m' c (Cert.ReferenceIdeal.main_arg0 : DevRef Cert.ReferenceIdeal.τ Cert.ReferenceIdeal.sig) = Cert.Sage.KChain.aX m c := e0
    have a1 : StableHlo.launchContents m' c (Cert.ReferenceIdeal.main_arg1 : DevRef Cert.ReferenceIdeal.τ Cert.ReferenceIdeal.sig) = Cert.Sage.KChain.aE m c := e1
    have a2 : StableHlo.launchContents m' c (Cert.ReferenceIdeal.main_arg2 : DevRef Cert.ReferenceIdeal.τ Cert.ReferenceIdeal.sig) = Cert.Sage.KChain.aB m c := e2
    have a3 : StableHlo.launchContents m' c (Cert.ReferenceIdeal.main_arg3 : DevRef Cert.ReferenceIdeal.τ Cert.ReferenceIdeal.sig) = Cert.Sage.KChain.aP m c := e3
    have a4 : StableHlo.launchContents m' c (Cert.ReferenceIdeal.main_arg4 : DevRef Cert.ReferenceIdeal.τ Cert.ReferenceIdeal.sig) = Cert.Sage.KChain.aWl1 m c := e4
    have a5 : StableHlo.launchContents m' c (Cert.ReferenceIdeal.main_arg5 : DevRef Cert.ReferenceIdeal.τ Cert.ReferenceIdeal.sig) = Cert.Sage.KChain.aWr1 m c := e5
    have a6 : StableHlo.launchContents m' c (Cert.ReferenceIdeal.main_arg6 : DevRef Cert.ReferenceIdeal.τ Cert.ReferenceIdeal.sig) = Cert.Sage.KChain.ab1 m c := e6
    have a7 : StableHlo.launchContents m' c (Cert.ReferenceIdeal.main_arg7 : DevRef Cert.ReferenceIdeal.τ Cert.ReferenceIdeal.sig) = Cert.Sage.KChain.aWl2 m c := e7
    have a8 : StableHlo.launchContents m' c (Cert.ReferenceIdeal.main_arg8 : DevRef Cert.ReferenceIdeal.τ Cert.ReferenceIdeal.sig) = Cert.Sage.KChain.aWr2 m c := e8
    have a9 : StableHlo.launchContents m' c (Cert.ReferenceIdeal.main_arg9 : DevRef Cert.ReferenceIdeal.τ Cert.ReferenceIdeal.sig) = Cert.Sage.KChain.ab2 m c := e9
    have a10 : StableHlo.launchContents m' c (Cert.ReferenceIdeal.main_arg10 : DevRef Cert.ReferenceIdeal.τ Cert.ReferenceIdeal.sig) = Cert.Sage.KChain.aWout m c := e10
    have a11 : StableHlo.launchContents m' c (Cert.ReferenceIdeal.main_arg11 : DevRef Cert.ReferenceIdeal.τ Cert.ReferenceIdeal.sig) = Cert.Sage.KChain.about m c := e11
    rw [a0, a1, a2, a3, a4, a5, a6, a7, a8, a9, a10, a11]
    unfold Cert.Sage.RefVal.refOut
    rw [Cert.Sage.RefLayer.refLayer128_eq, Cert.Sage.RefLayer.refLayer64_eq]
    unfold Cert.Sage.KChain.H2 Cert.Sage.KChain.H1
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
